-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x7x7 : Shape := ⟨4, ![256, 1024, 7, 7]⟩
abbrev S1024x512 : Shape := ⟨2, ![1024, 512]⟩
abbrev S1x512 : Shape := ⟨2, ![1, 512]⟩
abbrev S512x1000 : Shape := ⟨2, ![512, 1000]⟩
abbrev S1x1000 : Shape := ⟨2, ![1, 1000]⟩
abbrev S_ : Shape := ⟨0, ![]⟩

class Facts : Prop where
  bcast_S_S256x1024x7x7 : S_.BroadcastsInDim S256x1024x7x7 (![] : Fin 0 → Fin S256x1024x7x7.rank)
  reducesTo_S256x1024x7x7_S_d0_1_2_3 : S256x1024x7x7.ReducesTo [0, 1, 2, 3] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S512x1000 : S_.BroadcastsInDim S512x1000 (![] : Fin 0 → Fin S512x1000.rank)
  reducesTo_S512x1000_S_d0_1 : S512x1000.ReducesTo [0, 1] S_
  bcast_S_S1x1000 : S_.BroadcastsInDim S1x1000 (![] : Fin 0 → Fin S1x1000.rank)
  reducesTo_S1x1000_S_d0_1 : S1x1000.ReducesTo [0, 1] S_

variable [Facts]

def fn_part1 {F : FTy → Type} [FloatOps F] (main_arg4 : FVec F S1x1000 .f32) (main_v13 : IVec S_ 1) (main_v16 : IVec S512x1000 1) : IVec S_ 1 :=
  let main_c_5 : IVec S_ 1 := constantI S_ 1 1#1
  let main_v17 : IVec S_ 1 := (fun x v => Host.reduce IntOp.andi x v reducesTo_S512x1000_S_d0_1 h_S_) main_v16 main_c_5
  let main_v18 : IVec S_ 1 := andi main_v13 main_v17
  let main_v19 : FVec F S1x1000 .f32 := Host.absf main_arg4
  let main_cst_6 : FVec F S_ .f32 := constant S_ .f32 0x7F800000#32
  let main_v20 : FVec F S1x1000 .f32 := broadcastInDim S1x1000 ![] bcast_S_S1x1000 main_cst_6
  let main_v21 : IVec S1x1000 1 := cmpf .olt main_v19 main_v20
  let main_c_7 : IVec S_ 1 := constantI S_ 1 1#1
  let main_v22 : IVec S_ 1 := (fun x v => Host.reduce IntOp.andi x v reducesTo_S1x1000_S_d0_1 h_S_) main_v21 main_c_7
  let main_v23 : IVec S_ 1 := andi main_v18 main_v22
  main_v23

def fn {F : FTy → Type} [FloatOps F] (main_arg0 : FVec F S256x1024x7x7 .f32) (main_arg1 : FVec F S1024x512 .f32) (main_arg2 : FVec F S1x512 .f32) (main_arg3 : FVec F S512x1000 .f32) (main_arg4 : FVec F S1x1000 .f32) : IVec S_ 1 :=
  let main_v0 : FVec F S256x1024x7x7 .f32 := Host.absf main_arg0
  let main_cst : FVec F S_ .f32 := constant S_ .f32 0x7F800000#32
  let main_v1 : FVec F S256x1024x7x7 .f32 := broadcastInDim S256x1024x7x7 ![] bcast_S_S256x1024x7x7 main_cst
  let main_v2 : IVec S256x1024x7x7 1 := cmpf .olt main_v0 main_v1
  let main_c : IVec S_ 1 := constantI S_ 1 1#1
  let main_v3 : IVec S_ 1 := (fun x v => Host.reduce IntOp.andi x v reducesTo_S256x1024x7x7_S_d0_1_2_3 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x1000 .f32 := Host.absf main_arg3
  let main_cst_4 : FVec F S_ .f32 := constant S_ .f32 0x7F800000#32
  let main_v15 : FVec F S512x1000 .f32 := broadcastInDim S512x1000 ![] bcast_S_S512x1000 main_cst_4
  let main_v16 : IVec S512x1000 1 := cmpf .olt main_v14 main_v15
  fn_part1 (F := F) main_arg4 main_v13 main_v16
-- ==== Kernel.lean ====
abbrev S256x1024x7x7 : Shape := ⟨4, ![256, 1024, 7, 7]⟩
abbrev S1024x512 : Shape := ⟨2, ![1024, 512]⟩
abbrev S1x512 : Shape := ⟨2, ![1, 512]⟩
abbrev S512x1000 : Shape := ⟨2, ![512, 1000]⟩
abbrev S1x1000 : Shape := ⟨2, ![1, 1000]⟩
abbrev S7x7x256x1024 : Shape := ⟨4, ![7, 7, 256, 1024]⟩
abbrev S49x256x1024 : Shape := ⟨3, ![49, 256, 1024]⟩
abbrev S1000x512 : Shape := ⟨2, ![1000, 512]⟩
abbrev S256x1000 : Shape := ⟨2, ![256, 1000]⟩
abbrev S21x32x1024 : Shape := ⟨3, ![21, 32, 1024]⟩
abbrev S7x32x1024 : Shape := ⟨3, ![7, 32, 1024]⟩
abbrev S32x1000 : Shape := ⟨2, ![32, 1000]⟩
abbrev S32x1024 : Shape := ⟨2, ![32, 1024]⟩
abbrev S32x512 : Shape := ⟨2, ![32, 512]⟩

abbrev nBuf : Space → Nat
  | .hbm => 9
  | .vmem => 12
  | .smem => 0
  | _ => 0

abbrev bufTy : (tb : Table) → Fin (tcTables nBuf tb) → BufTy
  | .hbm, ⟨0, _⟩ => ⟨S256x1024x7x7, .f32⟩
  | .hbm, ⟨1, _⟩ => ⟨S1024x512, .f32⟩
  | .hbm, ⟨2, _⟩ => ⟨S1x512, .f32⟩
  | .hbm, ⟨3, _⟩ => ⟨S512x1000, .f32⟩
  | .hbm, ⟨4, _⟩ => ⟨S1x1000, .f32⟩
  | .hbm, ⟨5, _⟩ => ⟨S7x7x256x1024, .f32⟩
  | .hbm, ⟨6, _⟩ => ⟨S49x256x1024, .f32⟩
  | .hbm, ⟨7, _⟩ => ⟨S1000x512, .f32⟩
  | .hbm, ⟨8, _⟩ => ⟨S256x1000, .f32⟩
  | .local _ .vmem, ⟨0, _⟩ => ⟨S21x32x1024, .f32⟩
  | .local _ .vmem, ⟨1, _⟩ => ⟨S21x32x1024, .f32⟩
  | .local _ .vmem, ⟨2, _⟩ => ⟨S21x32x1024, .f32⟩
  | .local _ .vmem, ⟨3, _⟩ => ⟨S21x32x1024, .f32⟩
  | .local _ .vmem, ⟨4, _⟩ => ⟨S7x32x1024, .f32⟩
  | .local _ .vmem, ⟨5, _⟩ => ⟨S7x32x1024, .f32⟩
  | .local _ .vmem, ⟨6, _⟩ => ⟨S1024x512, .f32⟩
  | .local _ .vmem, ⟨7, _⟩ => ⟨S1x512, .f32⟩
  | .local _ .vmem, ⟨8, _⟩ => ⟨S1000x512, .f32⟩
  | .local _ .vmem, ⟨9, _⟩ => ⟨S1x1000, .f32⟩
  | .local _ .vmem, ⟨10, _⟩ => ⟨S32x1000, .f32⟩
  | .local _ .vmem, ⟨11, _⟩ => ⟨S32x1000, .f32⟩
  | _, _ => ⟨S256x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S21x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S21x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x1024x7x7_S7x7x256x1024_2_3_0_1 : S256x1024x7x7.Transposes [2, 3, 0, 1] S7x7x256x1024
  shapeCasts_S7x7x256x1024_S49x256x1024 : S7x7x256x1024.ShapeCasts S49x256x1024
  transposes_S512x1000_S1000x512_1_0 : S512x1000.Transposes [1, 0] S1000x512
  inb_S21x32x1024_S21x32x1024_0_0_0 : ∀ a, (![0, 0, 0] : Fin 3 → Nat) a + S21x32x1024.size a ≤ S21x32x1024.size a
  h_S21x32x1024 : 0 < S21x32x1024.numel
  shapeCasts_S21x32x1024_S21x32x1024 : S21x32x1024.ShapeCasts S21x32x1024
  reduces_S21x32x1024_S32x1024 : S21x32x1024.Reduces [0] S32x1024
  inb_S7x32x1024_S7x32x1024_0_0_0 : ∀ a, (![0, 0, 0] : Fin 3 → Nat) a + S7x32x1024.size a ≤ S7x32x1024.size a
  h_S7x32x1024 : 0 < S7x32x1024.numel
  shapeCasts_S7x32x1024_S7x32x1024 : S7x32x1024.ShapeCasts S7x32x1024
  reduces_S7x32x1024_S32x1024 : S7x32x1024.Reduces [0] S32x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  broadcasts_S1x512_S32x512 : S1x512.Broadcasts S32x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1x1000_S1x1000_0_0 : ∀ a, (![0, 0] : Fin 2 → Nat) a + S1x1000.size a ≤ S1x1000.size a
  h_S1x1000 : 0 < S1x1000.numel
  broadcasts_S1x1000_S32x1000 : S1x1000.Broadcasts S32x1000
  inb_S32x1000_S32x1000_0_0 : ∀ a, (![0, 0] : Fin 2 → Nat) a + S32x1000.size a ≤ S32x1000.size a
  h_S32x1000 : 0 < S32x1000.numel
  dot_S32x1024_S1024x512_S32x512_1_0_0_1_n_n_wf : DotDims.WF S32x1024 S1024x512 S32x512 [1] [0] [0] [1] [] []
  dot_S32x512_S1000x512_S32x1000_1_1_0_0_n_n_wf : DotDims.WF S32x512 S1000x512 S32x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S21x32x1024.size a < S49x256x1024.size a
  hwx0_0 : ∀ i : grid0.Coords, EltTy.bits .f32 = 32 ∨ (Rect.unit (s := S49x256x1024) (fun a => cc0_transform_0 i a * S21x32x1024.size a) (fun a => (Pipeline.Clip.of (cc0_transform_0 i a) (S21x32x1024.size a) (S49x256x1024.size a)).extent (S21x32x1024.size a)) fun a => Pipeline.Clip.inb (Pipeline.Clip.ok_of (hstart0_0 i a))).WholeWords (EltTy.packing .f32)
  hwxs0_0 : ∀ i : grid0.Coords, EltTy.bits .f32 = 32 ∨ (Rect.unit (s := S21x32x1024) (fun _ => 0) (fun a => (Pipeline.Clip.of (cc0_transform_0 i a) (S21x32x1024.size a) (S49x256x1024.size a)).extent (S21x32x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S21x32x1024.size a < S49x256x1024.size a
  hwx0_1 : ∀ i : grid0.Coords, EltTy.bits .f32 = 32 ∨ (Rect.unit (s := S49x256x1024) (fun a => cc0_transform_1 i a * S21x32x1024.size a) (fun a => (Pipeline.Clip.of (cc0_transform_1 i a) (S21x32x1024.size a) (S49x256x1024.size a)).extent (S21x32x1024.size a)) fun a => Pipeline.Clip.inb (Pipeline.Clip.ok_of (hstart0_1 i a))).WholeWords (EltTy.packing .f32)
  hwxs0_1 : ∀ i : grid0.Coords, EltTy.bits .f32 = 32 ∨ (Rect.unit (s := S21x32x1024) (fun _ => 0) (fun a => (Pipeline.Clip.of (cc0_transform_1 i a) (S21x32x1024.size a) (S49x256x1024.size a)).extent (S21x32x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S7x32x1024.size a ≤ S49x256x1024.size a
  hwx0_2 : ∀ i : grid0.Coords, EltTy.bits .f32 = 32 ∨ (Rect.block (s := S49x256x1024) S7x32x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S1000x512.size a
  hwx0_5 : ∀ i : grid0.Coords, EltTy.bits .f32 = 32 ∨ (Rect.block (s := S1000x512) S1000x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1000.size a ≤ S1x1000.size a
  hwx0_6 : ∀ i : grid0.Coords, EltTy.bits .f32 = 32 ∨ (Rect.block (s := S1x1000) S1x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x1000.size a ≤ S256x1000.size a
  hwx0_7 : ∀ i : grid0.Coords, EltTy.bits .f32 = 32 ∨ (Rect.block (s := S256x1000) S32x1000.size (cc0_transform_7 i) (hinb0_7 i)).WholeWords (EltTy.packing .f32)

variable [Facts₀]

def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S32x512_S1000x512_S32x1000_1_1_0_0_n_n : DotDims S32x512 S1000x512 S32x1000 where
  lhsContracting := [1]
  rhsContracting := [1]
  lhsNonContracting := [0]
  rhsNonContracting := [0]
  lhsBatch := []
  rhsBatch := []
  wf := dot_S32x512_S1000x512_S32x1000_1_1_0_0_n_n_wf

abbrev win0_0 : Pipeline.Window sig grid0 :=
  Pipeline.Window.ofSpecClip (Memref.whole main_v1) S21x32x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S21x32x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S7x32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1000x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S32x1000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x1024x7x7 : Shape := ⟨4, ![256, 1024, 7, 7]⟩
abbrev S1024x512 : Shape := ⟨2, ![1024, 512]⟩
abbrev S1x512 : Shape := ⟨2, ![1, 512]⟩
abbrev S512x1000 : Shape := ⟨2, ![512, 1000]⟩
abbrev S1x1000 : Shape := ⟨2, ![1, 1000]⟩
abbrev S256x1024x49 : Shape := ⟨3, ![256, 1024, 49]⟩
abbrev S_ : Shape := ⟨0, ![]⟩
abbrev S264x1024x49 : Shape := ⟨3, ![264, 1024, 49]⟩
abbrev S512x1024 : Shape := ⟨2, ![512, 1024]⟩
abbrev S1x1024 : Shape := ⟨2, ![1, 1024]⟩
abbrev S264x1024 : Shape := ⟨2, ![264, 1024]⟩
abbrev S24x1024x49 : Shape := ⟨3, ![24, 1024, 49]⟩
abbrev S24x1024 : Shape := ⟨2, ![24, 1024]⟩
abbrev S24x512 : Shape := ⟨2, ![24, 512]⟩
abbrev S256x1000 : Shape := ⟨2, ![256, 1000]⟩

abbrev nBuf : Space → Nat
  | .hbm => 23
  | .vmem => 8
  | .smem => 0
  | _ => 0

abbrev bufTy : (tb : Table) → Fin (tcTables nBuf tb) → BufTy
  | .hbm, ⟨0, _⟩ => ⟨S256x1024x7x7, .f32⟩
  | .hbm, ⟨1, _⟩ => ⟨S1024x512, .f32⟩
  | .hbm, ⟨2, _⟩ => ⟨S1x512, .f32⟩
  | .hbm, ⟨3, _⟩ => ⟨S512x1000, .f32⟩
  | .hbm, ⟨4, _⟩ => ⟨S1x1000, .f32⟩
  | .hbm, ⟨5, _⟩ => ⟨S256x1024x49, .f32⟩
  | .hbm, ⟨6, _⟩ => ⟨S_, .i32⟩
  | .hbm, ⟨7, _⟩ => ⟨S_, .f32⟩
  | .hbm, ⟨8, _⟩ => ⟨S264x1024x49, .f32⟩
  | .hbm, ⟨9, _⟩ => ⟨S_, .i32⟩
  | .hbm, ⟨10, _⟩ => ⟨S_, .f32⟩
  | .hbm, ⟨11, _⟩ => ⟨S1024x512, .f32⟩
  | .hbm, ⟨12, _⟩ => ⟨S_, .i32⟩
  | .hbm, ⟨13, _⟩ => ⟨S_, .f32⟩
  | .hbm, ⟨14, _⟩ => ⟨S1x512, .f32⟩
  | .hbm, ⟨15, _⟩ => ⟨S_, .i32⟩
  | .hbm, ⟨16, _⟩ => ⟨S_, .f32⟩
  | .hbm, ⟨17, _⟩ => ⟨S512x1024, .f32⟩
  | .hbm, ⟨18, _⟩ => ⟨S_, .i32⟩
  | .hbm, ⟨19, _⟩ => ⟨S_, .f32⟩
  | .hbm, ⟨20, _⟩ => ⟨S1x1024, .f32⟩
  | .hbm, ⟨21, _⟩ => ⟨S264x1024, .f32⟩
  | .hbm, ⟨22, _⟩ => ⟨S256x1000, .f32⟩
  | .local _ .vmem, ⟨0, _⟩ => ⟨S24x1024x49, .f32⟩
  | .local _ .vmem, ⟨1, _⟩ => ⟨S24x1024x49, .f32⟩
  | .local _ .vmem, ⟨2, _⟩ => ⟨S1024x512, .f32⟩
  | .local _ .vmem, ⟨3, _⟩ => ⟨S1x512, .f32⟩
  | .local _ .vmem, ⟨4, _⟩ => ⟨S512x1024, .f32⟩
  | .local _ .vmem, ⟨5, _⟩ => ⟨S1x1024, .f32⟩
  | .local _ .vmem, ⟨6, _⟩ => ⟨S24x1024, .f32⟩
  | .local _ .vmem, ⟨7, _⟩ => ⟨S24x1024, .f32⟩
  | _, _ => ⟨S256x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_c_2 : Ref sig .tc := ⟨.hbm, 15, rfl⟩
abbrev main_call3_v0 : Ref sig .tc := ⟨.hbm, 16, rfl⟩
abbrev main_v4 : Ref sig .tc := ⟨.hbm, 17, rfl⟩
abbrev main_c_3 : Ref sig .tc := ⟨.hbm, 18, rfl⟩
abbrev main_call4_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x1024x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S24x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x1024x7x7_S256x1024x49 : S256x1024x7x7.ShapeCasts S256x1024x49
  pads_S256x1024x49_S264x1024x49_080_000_000 : S256x1024x49.Pads (![0, 0, 0] : Fin 3 → Nat) ![8, 0, 0] ![0, 0, 0] S264x1024x49
  h_S_ : 0 < S_.numel
  pads_S1024x512_S1024x512_000_000 : S1024x512.Pads (![0, 0] : Fin 2 → Nat) ![0, 0] ![0, 0] S1024x512
  pads_S1x512_S1x512_000_000 : S1x512.Pads (![0, 0] : Fin 2 → Nat) ![0, 0] ![0, 0] S1x512
  pads_S512x1000_S512x1024_000_0240 : S512x1000.Pads (![0, 0] : Fin 2 → Nat) ![0, 24] ![0, 0] S512x1024
  pads_S1x1000_S1x1024_000_0240 : S1x1000.Pads (![0, 0] : Fin 2 → Nat) ![0, 24] ![0, 0] S1x1024
  inb_S24x1024x49_S24x1024x49_0_0_0 : ∀ a, (![0, 0, 0] : Fin 3 → Nat) a + S24x1024x49.size a ≤ S24x1024x49.size a
  h_S24x1024x49 : 0 < S24x1024x49.numel
  shapeCasts_S24x1024x49_S24x1024x49 : S24x1024x49.ShapeCasts S24x1024x49
  reduces_S24x1024x49_S24x1024 : S24x1024x49.Reduces [2] S24x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S24x512 : S1x512.Broadcasts S24x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S24x1024 : S1x1024.Broadcasts S24x1024
  inb_S24x1024_S24x1024_0_0 : ∀ a, (![0, 0] : Fin 2 → Nat) a + S24x1024.size a ≤ S24x1024.size a
  h_S24x1024 : 0 < S24x1024.numel
  slices_S264x1024_S256x1000_0_0 : S264x1024.Slices ![0, 0] S256x1000
  dot_S24x1024_S1024x512_S24x512_1_0_0_1_n_n_wf : DotDims.WF S24x1024 S1024x512 S24x512 [1] [0] [0] [1] [] []
  dot_S24x512_S512x1024_S24x1024_1_0_0_1_n_n_wf : DotDims.WF S24x512 S512x1024 S24x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x1024x49.size a ≤ S264x1024x49.size a
  hwx0_0 : ∀ i : grid0.Coords, EltTy.bits .f32 = 32 ∨ (Rect.block (s := S264x1024x49) S24x1024x49.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S24x1024.size a ≤ S264x1024.size a
  hwx0_5 : ∀ i : grid0.Coords, EltTy.bits .f32 = 32 ∨ (Rect.block (s := S264x1024) S24x1024.size (cc0_transform_5 i) (hinb0_5 i)).WholeWords (EltTy.packing .f32)

variable [Facts₀]

def dot_S24x1024_S1024x512_S24x512_1_0_0_1_n_n : DotDims S24x1024 S1024x512 S24x512 where
  lhsContracting := [1]
  rhsContracting := [0]
  lhsNonContracting := [0]
  rhsNonContracting := [1]
  lhsBatch := []
  rhsBatch := []
  wf := dot_S24x1024_S1024x512_S24x512_1_0_0_1_n_n_wf
def dot_S24x512_S512x1024_S24x1024_1_0_0_1_n_n : DotDims S24x512 S512x1024 S24x1024 where
  lhsContracting := [1]
  rhsContracting := [0]
  lhsNonContracting := [0]
  rhsNonContracting := [1]
  lhsBatch := []
  rhsBatch := []
  wf := dot_S24x512_S512x1024_S24x1024_1_0_0_1_n_n_wf

abbrev win0_0 : Pipeline.Window sig grid0 :=
  Pipeline.Window.ofSpec (Memref.whole main_v1) S24x1024x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S24x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.BData.lean ====
/-
  The staged arrays, the blocks each grid point reads and the proof data of the kernel's one pipelined call.

  The call reads the spatially-major copy of the activations (49 planes of 256 x 1024) through THREE windows on the same
  array: planes 0..20, planes 21..41 and planes 42..48 of the 32 samples of grid point t; the two weight matrices and
  the two bias rows whole; and writes the 32 x 1000 block of logits of those samples. The first two windows have a
  block of 21 planes, which does not divide 49, so their staging buffers are stated through the part of the block
  inside the array (here always all of it) filled out to the buffer's shape.
-/
import proofs.«145467_g2000303719555550_pallasbulk_618_22_alg».proof.Proof.Gen.Kernel.Launch
import proofs.«145467_g2000303719555550_pallasbulk_618_22_alg».proof.Proof.Gen.Kernel.Skeleton
import proofs.«145467_g2000303719555550_pallasbulk_618_22_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call starts -/

/-- Core `c`'s buffers when the pipelined call starts: the launch contents after the three host operations (the
    activations transposed to spatial-major and flattened to 49 planes; the classifier matrix transposed). -/
abbrev V (c : Dev nD) (b : Ref sig .tc) : Buf (Elt F) ((c : Thread nD τ).loc b) := StableHlo.after hostOps0 (fun b => m (c, b)) b

/-! ## The blocks -/

/-- Window `w`'s block at grid point `t`, read off its array as the call finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Planes 0..20 of the 32 samples of point `t`, at the staging buffer's shape. -/
def fblk0 (c : Dev nD) (t : Fin cfg0.N) : S21x32x1024.Idx → Elt F .f32 :=
  win0_0.fill (grid0.coords t) (fun _ => Scalar.ofBits .f32 0#32) (iblk m c 0 t)
/-- Planes 21..41 of the same samples, at the staging buffer's shape. -/
def fblk1 (c : Dev nD) (t : Fin cfg0.N) : S21x32x1024.Idx → Elt F .f32 :=
  win0_1.fill (grid0.coords t) (fun _ => Scalar.ofBits .f32 0#32) (iblk m c 1 t)

/-! ## The body's accesses: every load and the one store take the whole buffer -/

abbrev r0_0 : Rect S21x32x1024 := Rect.unit (s := S21x32x1024) ![0, 0, 0] S21x32x1024.size inb_S21x32x1024_S21x32x1024_0_0_0
abbrev r0_2 : Rect S7x32x1024 := Rect.unit (s := S7x32x1024) ![0, 0, 0] S7x32x1024.size inb_S7x32x1024_S7x32x1024_0_0_0
abbrev r0_3 : Rect S1024x512 := Rect.unit (s := S1024x512) ![0, 0] S1024x512.size inb_S1024x512_S1024x512_0_0
abbrev r0_4 : Rect S1x512 := Rect.unit (s := S1x512) ![0, 0] S1x512.size inb_S1x512_S1x512_0_0
abbrev r0_5 : Rect S1000x512 := Rect.unit (s := S1000x512) ![0, 0] S1000x512.size inb_S1000x512_S1000x512_0_0
abbrev r0_6 : Rect S1x1000 := Rect.unit (s := S1x1000) ![0, 0] S1x1000.size inb_S1x1000_S1x1000_0_0
abbrev r0_7 : Rect S32x1000 := Rect.unit (s := S32x1000) ![0, 0] S32x1000.size inb_S32x1000_S32x1000_0_0

/-- What the body leaves in the logits' staging buffer, from the seven input buffers' contents: its one store, of the
    body's arithmetic on the seven loads. -/
def out0_7 (x0 x1 : Vec F S21x32x1024 .f32) (x2 : Vec F S7x32x1024 .f32) (x3 : Vec F S1024x512 .f32) (x4 : Vec F S1x512 .f32)
    (x5 : Vec F S1000x512 .f32) (x6 : Vec F S1x1000 .f32) : Vec F S32x1000 .f32 :=
  View.canon [⟨r0_7, k0_pay1 (View.ld x0 r0_0) (View.ld x1 r0_0) (View.ld x2 r0_2) (View.ld x3 r0_3) (View.ld x4 r0_4) (View.ld x5 r0_5) (View.ld x6 r0_6)⟩]

/-! ## The proof data -/

/-- The proof data of the call on core `c`: the arrays as the call finds them; after the body at point `t` each input
    buffer at its block and the logits' buffer at `out0_7` of the blocks; nothing kept between points; nothing owed;
    the shared activations array dealt among its three windows as a half and two quarters, every other input whole. -/
def dats (_ : Fin 1) (c : Dev nD) : Dat τ (Elt F) Unit ℕ (UR sig nD τ) ℕ cfg0 c where
  A w := V m c (Pipeline.arrRef spec0 w)
  after w t := match w with
    | ⟨0, _⟩ => fblk0 m c t
    | ⟨1, _⟩ => fblk1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (fblk0 m c t) (fblk1 m c t) (iblk m c 2 t) (iblk m c 3 t) (iblk m c 4 t) (iblk m c 5 t) (iblk m c 6 t)
  Φ _ := iprop(emp)
  q w := match w with
    | ⟨0, _⟩ => fullShare.left
    | ⟨1, _⟩ => fullShare.right.left
    | ⟨2, _⟩ => fullShare.right.right
    | _ => fullShare
  owed _ := 0

/-- The proof data's arrays are the contents the call finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = fblk0 m c t := by dsimp only [dats]
theorem after0_1 (c : Dev nD) (t : Fin cfg0.N) : (dats m 0 c).after 1 t = fblk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (fblk0 m c t) (fblk1 m c t) (iblk m c 2 t) (iblk m c 3 t) (iblk m c 4 t) (iblk m c 5 t) (iblk m c 6 t) := by dsimp only [dats]

end Cert.Kernel.Hand

end
-- ==== Proof.BBody.lean ====
/-
  The body's triple: run on eight whole staging buffers, the seven inputs' at given contents and the logits' at anything,
  it ends with the inputs' unchanged and the logits' holding the stored value (its one store covers the buffer).
-/
import proofs.«145467_g2000303719555550_pallasbulk_618_22_alg».proof.Proof.BData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one store takes the whole 32 x 1000 buffer. -/
theorem cover0_7 (p0 : Vec F S32x1000 .f32) (y : S32x1000.Idx) :
    ∃ pc ∈ ([⟨r0_7, p0⟩] : List (View.Piece (Elt F) S32x1000 .f32)), y ∈ pc.1.set :=
  View.cover_of_tiled [⟨r0_7, p0⟩] S32x1000.size (by rfl) y

set_option maxHeartbeats 1000000 in
theorem sound_kernel (c : Dev nD) (E : Set ℕ) (i : grid0.Coords) (arg1 : Memref sig .tc .vmem S21x32x1024 .f32) (harg1 : arg1.IsWhole) (arg2 : Memref sig .tc .vmem S21x32x1024 .f32) (harg2 : arg2.IsWhole) (arg3 : Memref sig .tc .vmem S7x32x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1000x512 .f32) (harg6 : arg6.IsWhole) (arg7 : Memref sig .tc .vmem S1x1000 .f32) (harg7 : arg7.IsWhole) (arg8 : Memref sig .tc .vmem S32x1000 .f32) (harg8 : arg8.IsWhole)
    (x0 x1 : Vec F S21x32x1024 .f32) (x2 : Vec F S7x32x1024 .f32) (x3 : Vec F S1024x512 .f32) (x4 : Vec F S1x512 .f32) (x5 : Vec F S1000x512 .f32) (x6 : Vec F S1x1000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8) K := by
  simp only [cc0__head_kernel_eq_skeleton]; unfold cc0__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.Kernel.Hand

end
-- ==== Proof.BBefore.lean ====
/-
  What each input staging buffer holds when the body runs at grid point t: the window's block there.
  The three windows on the activations array are fetched at every point; the weights and biases are fetched once, at
  the first point, and their index never moves. The two 21-plane windows never reach past plane 41 of 49, so their
  fetch is never cut and fills the whole buffer.
-/
import proofs.«145467_g2000303719555550_pallasbulk_618_22_alg».proof.Proof.BData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 21-plane window on planes 0..20 is never cut: its block lies inside the array at every grid point. -/
theorem clip0_0 (t : Fin cfg0.N) (a) : (cfg0.win 0).clip (cfg0.grid.coords t) a = none := by
  exact (by decide +kernel : ∀ (t : Fin grid0.N) (a : Fin 3), win0_0.clip (grid0.coords t) a = none) t a
/-- Nor is the one on planes 21..41. -/
theorem clip0_1 (t : Fin cfg0.N) (a) : (cfg0.win 1).clip (cfg0.grid.coords t) a = none := by
  exact (by decide +kernel : ∀ (t : Fin grid0.N) (a : Fin 3), win0_1.clip (grid0.coords t) a = none) t a

theorem before0_0 (c : Dev nD) (t : Fin cfg0.N) (d) : (dats m 0 c).before 0 t d = fblk0 m c t := by
  unfold Dat.before; rw [if_pos (fetch0_0 t)]
  exact Pipeline.fill_of_clip_none (cfg := cfg0) 0 _ (clip0_0 t) d _ _
theorem before0_1 (c : Dev nD) (t : Fin cfg0.N) (d) : (dats m 0 c).before 1 t d = fblk1 m c t := by
  unfold Dat.before; rw [if_pos (fetch0_1 t)]
  exact Pipeline.fill_of_clip_none (cfg := cfg0) 1 _ (clip0_1 t) d _ _
theorem before0_2 (c : Dev nD) (t : Fin cfg0.N) (d) : (dats m 0 c).before 2 t d = iblk m c 2 t := by
  exact ((dats m 0 c).before_in_eq_fetched 2 rfl (fun _ => rfl) (fun _ _ _ => rfl)
    (fun t => by rw [after0_2]; unfold Dat.blockOf iblk; rw [A_eq m c 2]; try rfl) t d).trans
    (by unfold Dat.fetched Dat.blockOf iblk; rw [A_eq m c 2]; try rfl)
theorem before0_3 (c : Dev nD) (t : Fin cfg0.N) (d) : (dats m 0 c).before 3 t d = iblk m c 3 t := by
  exact ((dats m 0 c).before_in_eq_fetched 3 rfl (fun _ => rfl) (fun _ _ _ => rfl)
    (fun t => by rw [after0_3]; unfold Dat.blockOf iblk; rw [A_eq m c 3]; try rfl) t d).trans
    (by unfold Dat.fetched Dat.blockOf iblk; rw [A_eq m c 3]; try rfl)
theorem before0_4 (c : Dev nD) (t : Fin cfg0.N) (d) : (dats m 0 c).before 4 t d = iblk m c 4 t := by
  exact ((dats m 0 c).before_in_eq_fetched 4 rfl (fun _ => rfl) (fun _ _ _ => rfl)
    (fun t => by rw [after0_4]; unfold Dat.blockOf iblk; rw [A_eq m c 4]; try rfl) t d).trans
    (by unfold Dat.fetched Dat.blockOf iblk; rw [A_eq m c 4]; try rfl)
theorem before0_5 (c : Dev nD) (t : Fin cfg0.N) (d) : (dats m 0 c).before 5 t d = iblk m c 5 t := by
  exact ((dats m 0 c).before_in_eq_fetched 5 rfl (fun _ => rfl) (fun _ _ _ => rfl)
    (fun t => by rw [after0_5]; unfold Dat.blockOf iblk; rw [A_eq m c 5]; try rfl) t d).trans
    (by unfold Dat.fetched Dat.blockOf iblk; rw [A_eq m c 5]; try rfl)
theorem before0_6 (c : Dev nD) (t : Fin cfg0.N) (d) : (dats m 0 c).before 6 t d = iblk m c 6 t := by
  exact ((dats m 0 c).before_in_eq_fetched 6 rfl (fun _ => rfl) (fun _ _ _ => rfl)
    (fun t => by rw [after0_6]; unfold Dat.blockOf iblk; rw [A_eq m c 6]; try rfl) t d).trans
    (by unfold Dat.fetched Dat.blockOf iblk; rw [A_eq m c 6]; try rfl)

/-- A 21-plane block filled out with any other filler is the same buffer contents (nothing of the filler is left). -/
theorem fill0_0 (c : Dev nD) (t : Fin cfg0.N) (d : S21x32x1024.Idx → Elt F .f32) :
    win0_0.fill (grid0.coords t) d (iblk m c 0 t) = fblk0 m c t := by
  exact Pipeline.fill_of_clip_none (cfg := cfg0) 0 _ (clip0_0 t) d _ _
theorem fill0_1 (c : Dev nD) (t : Fin cfg0.N) (d : S21x32x1024.Idx → Elt F .f32) :
    win0_1.fill (grid0.coords t) d (iblk m c 1 t) = fblk1 m c t := by
  exact Pipeline.fill_of_clip_none (cfg := cfg0) 1 _ (clip0_1 t) d _ _
/-- Cutting the filled block back gives the block. -/
theorem cut0_0 (c : Dev nD) (t : Fin cfg0.N) : win0_0.cut (grid0.coords t) (fblk0 m c t) = iblk m c 0 t := by
  exact Window.cut_fill win0_0 (grid0.coords t) _ (iblk m c 0 t)
theorem cut0_1 (c : Dev nD) (t : Fin cfg0.N) : win0_1.cut (grid0.coords t) (fblk1 m c t) = iblk m c 1 t := by
  exact Window.cut_fill win0_1 (grid0.coords t) _ (iblk m c 1 t)

end Cert.Kernel.Hand

end
-- ==== Proof.BObligation.lean ====
/-
  The body obligation at a generic grid point: each input buffer arrives holding its block, so the body's triple
  applies; the two 21-plane windows' buffers are handed back stated on the part of the block inside the array, which
  here is the whole block.
-/
import proofs.«145467_g2000303719555550_pallasbulk_618_22_alg».proof.Proof.BBody
import proofs.«145467_g2000303719555550_pallasbulk_618_22_alg».proof.Proof.BBefore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_obligation (c : Dev nD) : BodyObligationLoose (dats (F := F) m 0 c) (defs₀ (F := F)) Variants.none () Set.univ := fun t => by
  rw [bigSep_W0, bigSep_W0]
  -- no point is idle; windows 0 and 1 are handed back stated on the part of the block inside the array, the
  -- other six exactly; the invariant is `emp` and nothing is owed at either position
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3, before0_4 m c t d4,
    before0_5 m c t d5, before0_6 m c t d6]
  rw [after0_0, after0_1, after0_2, after0_3, after0_4, after0_5, after0_6, after0_7]
  iapply (sound_kernel c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (fblk0 m c t) (fblk1 m c t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  -- the two 21-plane buffers hold their blocks filled out; cut back to the part inside the array and filled out
  -- again with the filler they came with, they are the same contents
  isplitl [H0]
  · iexists d0
    change _ ⊢ owns (c : Thread nD τ) (stage0_0 (cfg0.slots t 0)) fullShare
      (win0_0.fill (grid0.coords t) d0 (win0_0.cut (grid0.coords t) (fblk0 m c t)))
    rw [cut0_0, fill0_0]
  isplitl [H1]
  · iexists d1
    change _ ⊢ owns (c : Thread nD τ) (stage0_1 (cfg0.slots t 1)) fullShare
      (win0_1.fill (grid0.coords t) d1 (win0_1.cut (grid0.coords t) (fblk1 m c t)))
    rw [cut0_1, fill0_1]
  isplitl [H2]; · iexact H2
  isplitl [H3]; · iexact H3
  isplitl [H4]; · iexact H4
  isplitl [H5]; · iexact H5
  isplitl [H6]; · iexact H6
  iexact H7

end Cert.Kernel.Hand

end
-- ==== Proof.BHost.lean ====
/-
  The three host operations before the call: what they leave untouched. None writes an argument array, so the call
  finds every argument as launched.
-/
import proofs.«145467_g2000303719555550_pallasbulk_618_22_alg».proof.Proof.BData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

/-- The program up to the call: the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is none of the three arrays the host operations write keeps its launch contents. -/
theorem V_of_not_written (c : Dev nD) (r : Ref sig .tc) (h0 : r ≠ main_v0) (h1 : r ≠ main_v1) (h2 : r ≠ main_v2) :
    V m c r = m ((c : Thread nD τ).loc r) :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) :=
  V_of_not_written m c main_arg0 (by decide) (by decide) (by decide)
theorem V_main_arg1 (c : Dev nD) : V m c main_arg1 = m ((c : Thread nD τ).loc main_arg1) :=
  V_of_not_written m c main_arg1 (by decide) (by decide) (by decide)
theorem V_main_arg2 (c : Dev nD) : V m c main_arg2 = m ((c : Thread nD τ).loc main_arg2) :=
  V_of_not_written m c main_arg2 (by decide) (by decide) (by decide)
theorem V_main_arg3 (c : Dev nD) : V m c main_arg3 = m ((c : Thread nD τ).loc main_arg3) :=
  V_of_not_written m c main_arg3 (by decide) (by decide) (by decide)
theorem V_main_arg4 (c : Dev nD) : V m c main_arg4 = m ((c : Thread nD τ).loc main_arg4) :=
  V_of_not_written m c main_arg4 (by decide) (by decide) (by decide)

end Cert.Kernel.Hand

end
-- ==== Proof.BSplit.lean ====
/-
  How the launch's holdings become the pipeline's: the buffers behind the windows' arrays, each whole, are the
  windows' arrays at the shares the proof data names. The activations array is read by three windows: its full share
  is split into a half and two quarters; every other array has one window and goes whole.
-/
import proofs.«145467_g2000303719555550_pallasbulk_618_22_alg».proof.Proof.BData
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six distinct buffers behind the eight windows' arrays. -/
theorem arr_image : (Finset.univ.image (Pipeline.arrRef spec0) : Finset (Ref sig .tc))
    = [main_v1, main_arg1, main_arg2, main_v2, main_arg4, main_v3].toFinset := by decide

/-- Those six buffers, each whole at what the call finds, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_v1) ↦{fullShare} V m c main_v1) ∗ (((c : Thread nD τ).loc main_arg1) ↦{fullShare} V m c main_arg1)
          ∗ (((c : Thread nD τ).loc main_arg2) ↦{fullShare} V m c main_arg2) ∗ (((c : Thread nD τ).loc main_v2) ↦{fullShare} V m c main_v2)
          ∗ (((c : Thread nD τ).loc main_arg4) ↦{fullShare} V m c main_arg4) ∗ (((c : Thread nD τ).loc main_v3) ↦{fullShare} V m c main_v3)) := by
  unfold Pipeline.arrBufs
  exact bigSep_eq_bigSepL_of_eq [main_v1, main_arg1, main_arg2, main_v2, main_arg4, main_v3] arr_image (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  have e7 : (cfg0.win 7).arr.view.set = Finset.univ := (arr_whole0 7).set_eq_univ
  have s0 : (dats m 0 c).share 0 = fullShare.left := rfl
  have s1 : (dats m 0 c).share 1 = fullShare.right.left := rfl
  have s2 : (dats m 0 c).share 2 = fullShare.right.right := rfl
  have s3 : (dats m 0 c).share 3 = fullShare := rfl
  have s4 : (dats m 0 c).share 4 = fullShare := rfl
  have s5 : (dats m 0 c).share 5 = fullShare := rfl
  have s6 : (dats m 0 c).share 6 = fullShare := rfl
  have s7 : (dats m 0 c).share 7 = fullShare := rfl
  simp only [e0, e1, e2, e3, e4, e5, e6, e7, s0, s1, s2, s3, s4, s5, s6, s7]
  iintro ⟨H1, Ha1, Ha2, Hv2, Ha4, Hv3⟩
  -- the activations array, read by three windows: a half, then the other half in two quarters
  ihave H1 := (pointsTo_share (PosShare.mem_left_op_right fullShare)).1 $$ H1
  icases H1 with ⟨H10, H1r⟩
  ihave H1r := (pointsTo_share (PosShare.mem_left_op_right fullShare.right)).1 $$ H1r
  icases H1r with ⟨H11, H12⟩
  isplitl [H10]; · iexact H10
  isplitl [H11]; · iexact H11
  isplitl [H12]; · iexact H12
  isplitl [Ha1]; · iexact Ha1
  isplitl [Ha2]; · iexact Ha2
  isplitl [Hv2]; · iexact Hv2
  isplitl [Ha4]; · iexact Ha4
  iexact Hv3

end Cert.Kernel.Hand

end
-- ==== Proof.BRun.lean ====
/-
  The run: at the compiled mesh, from any memory with zero counters, every weakly fair execution of the program
  terminates; every array of the call ends at what the proof data computes (an input as the call found it, the logits
  array overwritten block by block) and every other array as the call found it. Read at the arguments this is the
  frame; read at the result it names the logits array.
-/
import proofs.«145467_g2000303719555550_pallasbulk_618_22_alg».proof.Proof.BObligation
import proofs.«145467_g2000303719555550_pallasbulk_618_22_alg».proof.Proof.BHost
import proofs.«145467_g2000303719555550_pallasbulk_618_22_alg».proof.Proof.BSplit
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's rounds algebra, embedded in the program's ghost state. -/
abbrev EP : Emb (UR sig nD τ) (MT nD τ sig Unit (Elt F) ℕ (UR sig nD τ) ℕ) := emb₁

set_option backward.isDefEq.respectTransparency.types false in
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro HZ; isplitr; · iempintro
                       iexact HZ)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      (((h c).1 3).trans ((dats m 0 c).arrAt_in 3 rfl _)).trans ((A_eq m c 3).trans (V_main_arg1 m c)),
      (((h c).1 4).trans ((dats m 0 c).arrAt_in 4 rfl _)).trans ((A_eq m c 4).trans (V_main_arg2 m c)),
      ((h c).2 main_arg3 (Pipeline.mem_restRefs_of main_arg3 (by decide) (by decide))).trans (V_main_arg3 m c),
      (((h c).1 6).trans ((dats m 0 c).arrAt_in 6 rfl _)).trans ((A_eq m c 6).trans (V_main_arg4 m c))⟩)
    (run_main m ρ)

theorem run_value : θ_run defs (onTc (τ := τ) (main (F := F))) ⟨m, fun _ => 0, ρ⟩ (fun r => ∀ c : Dev nD,
      r.2.mem ((c.tc : Thread nD τ).loc main_v3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1 7,
      ((h c).2 main_arg0 (Pipeline.mem_restRefs_of main_arg0 (by decide) (by decide))).trans (V_main_arg0 m c),
      (((h c).1 3).trans ((dats m 0 c).arrAt_in 3 rfl _)).trans ((A_eq m c 3).trans (V_main_arg1 m c)),
      (((h c).1 4).trans ((dats m 0 c).arrAt_in 4 rfl _)).trans ((A_eq m c 4).trans (V_main_arg2 m c)),
      ((h c).2 main_arg3 (Pipeline.mem_restRefs_of main_arg3 (by decide) (by decide))).trans (V_main_arg3 m c),
      (((h c).1 6).trans ((dats m 0 c).arrAt_in 6 rfl _)).trans ((A_eq m c 6).trans (V_main_arg4 m c))⟩)
    (run_main m ρ)

end Cert.Kernel.Hand

end
-- ==== Proof.IData.lean ====
/-
  The staged arrays, the blocks each grid point reads and the proof data of the kernel's one pipelined call.

  The call reads the spatially-major copy of the activations (49 planes of 256 x 1024) through THREE windows on the same
  array: planes 0..20, planes 21..41 and planes 42..48 of the 32 samples of grid point t; the two weight matrices and
  the two bias rows whole; and writes the 32 x 1000 block of logits of those samples. The first two windows have a
  block of 21 planes, which does not divide 49, so their staging buffers are stated through the part of the block
  inside the array (here always all of it) filled out to the buffer's shape.
-/
import proofs.«145467_g2000303719555550_pallasbulk_618_22_alg».proof.Proof.Gen.KernelIdeal.Launch
import proofs.«145467_g2000303719555550_pallasbulk_618_22_alg».proof.Proof.Gen.KernelIdeal.Skeleton
import proofs.«145467_g2000303719555550_pallasbulk_618_22_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call starts -/

/-- Core `c`'s buffers when the pipelined call starts: the launch contents after the three host operations (the
    activations transposed to spatial-major and flattened to 49 planes; the classifier matrix transposed). -/
abbrev V (c : Dev nD) (b : Ref sig .tc) : Buf (Elt F) ((c : Thread nD τ).loc b) := StableHlo.after hostOps0 (fun b => m (c, b)) b

/-! ## The blocks -/

/-- Window `w`'s block at grid point `t`, read off its array as the call finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Planes 0..20 of the 32 samples of point `t`, at the staging buffer's shape. -/
def fblk0 (c : Dev nD) (t : Fin cfg0.N) : S21x32x1024.Idx → Elt F .f32 :=
  win0_0.fill (grid0.coords t) (fun _ => Scalar.ofBits .f32 0#32) (iblk m c 0 t)
/-- Planes 21..41 of the same samples, at the staging buffer's shape. -/
def fblk1 (c : Dev nD) (t : Fin cfg0.N) : S21x32x1024.Idx → Elt F .f32 :=
  win0_1.fill (grid0.coords t) (fun _ => Scalar.ofBits .f32 0#32) (iblk m c 1 t)

/-! ## The body's accesses: every load and the one store take the whole buffer -/

abbrev r0_0 : Rect S21x32x1024 := Rect.unit (s := S21x32x1024) ![0, 0, 0] S21x32x1024.size inb_S21x32x1024_S21x32x1024_0_0_0
abbrev r0_2 : Rect S7x32x1024 := Rect.unit (s := S7x32x1024) ![0, 0, 0] S7x32x1024.size inb_S7x32x1024_S7x32x1024_0_0_0
abbrev r0_3 : Rect S1024x512 := Rect.unit (s := S1024x512) ![0, 0] S1024x512.size inb_S1024x512_S1024x512_0_0
abbrev r0_4 : Rect S1x512 := Rect.unit (s := S1x512) ![0, 0] S1x512.size inb_S1x512_S1x512_0_0
abbrev r0_5 : Rect S1000x512 := Rect.unit (s := S1000x512) ![0, 0] S1000x512.size inb_S1000x512_S1000x512_0_0
abbrev r0_6 : Rect S1x1000 := Rect.unit (s := S1x1000) ![0, 0] S1x1000.size inb_S1x1000_S1x1000_0_0
abbrev r0_7 : Rect S32x1000 := Rect.unit (s := S32x1000) ![0, 0] S32x1000.size inb_S32x1000_S32x1000_0_0

/-- What the body leaves in the logits' staging buffer, from the seven input buffers' contents: its one store, of the
    body's arithmetic on the seven loads. -/
def out0_7 (x0 x1 : Vec F S21x32x1024 .f32) (x2 : Vec F S7x32x1024 .f32) (x3 : Vec F S1024x512 .f32) (x4 : Vec F S1x512 .f32)
    (x5 : Vec F S1000x512 .f32) (x6 : Vec F S1x1000 .f32) : Vec F S32x1000 .f32 :=
  View.canon [⟨r0_7, k0_pay1 (View.ld x0 r0_0) (View.ld x1 r0_0) (View.ld x2 r0_2) (View.ld x3 r0_3) (View.ld x4 r0_4) (View.ld x5 r0_5) (View.ld x6 r0_6)⟩]

/-! ## The proof data -/

/-- The proof data of the call on core `c`: the arrays as the call finds them; after the body at point `t` each input
    buffer at its block and the logits' buffer at `out0_7` of the blocks; nothing kept between points; nothing owed;
    the shared activations array dealt among its three windows as a half and two quarters, every other input whole. -/
def dats (_ : Fin 1) (c : Dev nD) : Dat τ (Elt F) Unit ℕ (UR sig nD τ) ℕ cfg0 c where
  A w := V m c (Pipeline.arrRef spec0 w)
  after w t := match w with
    | ⟨0, _⟩ => fblk0 m c t
    | ⟨1, _⟩ => fblk1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (fblk0 m c t) (fblk1 m c t) (iblk m c 2 t) (iblk m c 3 t) (iblk m c 4 t) (iblk m c 5 t) (iblk m c 6 t)
  Φ _ := iprop(emp)
  q w := match w with
    | ⟨0, _⟩ => fullShare.left
    | ⟨1, _⟩ => fullShare.right.left
    | ⟨2, _⟩ => fullShare.right.right
    | _ => fullShare
  owed _ := 0

/-- The proof data's arrays are the contents the call finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = fblk0 m c t := by dsimp only [dats]
theorem after0_1 (c : Dev nD) (t : Fin cfg0.N) : (dats m 0 c).after 1 t = fblk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (fblk0 m c t) (fblk1 m c t) (iblk m c 2 t) (iblk m c 3 t) (iblk m c 4 t) (iblk m c 5 t) (iblk m c 6 t) := by dsimp only [dats]

end Cert.KernelIdeal.Hand

end
-- ==== Proof.IBody.lean ====
/-
  The body's triple: run on eight whole staging buffers, the seven inputs' at given contents and the logits' at anything,
  it ends with the inputs' unchanged and the logits' holding the stored value (its one store covers the buffer).
-/
import proofs.«145467_g2000303719555550_pallasbulk_618_22_alg».proof.Proof.IData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one store takes the whole 32 x 1000 buffer. -/
theorem cover0_7 (p0 : Vec F S32x1000 .f32) (y : S32x1000.Idx) :
    ∃ pc ∈ ([⟨r0_7, p0⟩] : List (View.Piece (Elt F) S32x1000 .f32)), y ∈ pc.1.set :=
  View.cover_of_tiled [⟨r0_7, p0⟩] S32x1000.size (by rfl) y

set_option maxHeartbeats 1000000 in
theorem sound_kernel (c : Dev nD) (E : Set ℕ) (i : grid0.Coords) (arg1 : Memref sig .tc .vmem S21x32x1024 .f32) (harg1 : arg1.IsWhole) (arg2 : Memref sig .tc .vmem S21x32x1024 .f32) (harg2 : arg2.IsWhole) (arg3 : Memref sig .tc .vmem S7x32x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1000x512 .f32) (harg6 : arg6.IsWhole) (arg7 : Memref sig .tc .vmem S1x1000 .f32) (harg7 : arg7.IsWhole) (arg8 : Memref sig .tc .vmem S32x1000 .f32) (harg8 : arg8.IsWhole)
    (x0 x1 : Vec F S21x32x1024 .f32) (x2 : Vec F S7x32x1024 .f32) (x3 : Vec F S1024x512 .f32) (x4 : Vec F S1x512 .f32) (x5 : Vec F S1000x512 .f32) (x6 : Vec F S1x1000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__head_kernel i arg1 harg1 arg2 harg2 arg3 harg3 arg4 harg4 arg5 harg5 arg6 harg6 arg7 harg7 arg8 harg8) K := by
  simp only [cc0__head_kernel_eq_skeleton]; unfold cc0__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.KernelIdeal.Hand

end
-- ==== Proof.IBefore.lean ====
/-
  What each input staging buffer holds when the body runs at grid point t: the window's block there.
  The three windows on the activations array are fetched at every point; the weights and biases are fetched once, at
  the first point, and their index never moves. The two 21-plane windows never reach past plane 41 of 49, so their
  fetch is never cut and fills the whole buffer.
-/
import proofs.«145467_g2000303719555550_pallasbulk_618_22_alg».proof.Proof.IData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 21-plane window on planes 0..20 is never cut: its block lies inside the array at every grid point. -/
theorem clip0_0 (t : Fin cfg0.N) (a) : (cfg0.win 0).clip (cfg0.grid.coords t) a = none := by
  exact (by decide +kernel : ∀ (t : Fin grid0.N) (a : Fin 3), win0_0.clip (grid0.coords t) a = none) t a
/-- Nor is the one on planes 21..41. -/
theorem clip0_1 (t : Fin cfg0.N) (a) : (cfg0.win 1).clip (cfg0.grid.coords t) a = none := by
  exact (by decide +kernel : ∀ (t : Fin grid0.N) (a : Fin 3), win0_1.clip (grid0.coords t) a = none) t a

theorem before0_0 (c : Dev nD) (t : Fin cfg0.N) (d) : (dats m 0 c).before 0 t d = fblk0 m c t := by
  unfold Dat.before; rw [if_pos (fetch0_0 t)]
  exact Pipeline.fill_of_clip_none (cfg := cfg0) 0 _ (clip0_0 t) d _ _
theorem before0_1 (c : Dev nD) (t : Fin cfg0.N) (d) : (dats m 0 c).before 1 t d = fblk1 m c t := by
  unfold Dat.before; rw [if_pos (fetch0_1 t)]
  exact Pipeline.fill_of_clip_none (cfg := cfg0) 1 _ (clip0_1 t) d _ _
theorem before0_2 (c : Dev nD) (t : Fin cfg0.N) (d) : (dats m 0 c).before 2 t d = iblk m c 2 t := by
  exact ((dats m 0 c).before_in_eq_fetched 2 rfl (fun _ => rfl) (fun _ _ _ => rfl)
    (fun t => by rw [after0_2]; unfold Dat.blockOf iblk; rw [A_eq m c 2]; try rfl) t d).trans
    (by unfold Dat.fetched Dat.blockOf iblk; rw [A_eq m c 2]; try rfl)
theorem before0_3 (c : Dev nD) (t : Fin cfg0.N) (d) : (dats m 0 c).before 3 t d = iblk m c 3 t := by
  exact ((dats m 0 c).before_in_eq_fetched 3 rfl (fun _ => rfl) (fun _ _ _ => rfl)
    (fun t => by rw [after0_3]; unfold Dat.blockOf iblk; rw [A_eq m c 3]; try rfl) t d).trans
    (by unfold Dat.fetched Dat.blockOf iblk; rw [A_eq m c 3]; try rfl)
theorem before0_4 (c : Dev nD) (t : Fin cfg0.N) (d) : (dats m 0 c).before 4 t d = iblk m c 4 t := by
  exact ((dats m 0 c).before_in_eq_fetched 4 rfl (fun _ => rfl) (fun _ _ _ => rfl)
    (fun t => by rw [after0_4]; unfold Dat.blockOf iblk; rw [A_eq m c 4]; try rfl) t d).trans
    (by unfold Dat.fetched Dat.blockOf iblk; rw [A_eq m c 4]; try rfl)
theorem before0_5 (c : Dev nD) (t : Fin cfg0.N) (d) : (dats m 0 c).before 5 t d = iblk m c 5 t := by
  exact ((dats m 0 c).before_in_eq_fetched 5 rfl (fun _ => rfl) (fun _ _ _ => rfl)
    (fun t => by rw [after0_5]; unfold Dat.blockOf iblk; rw [A_eq m c 5]; try rfl) t d).trans
    (by unfold Dat.fetched Dat.blockOf iblk; rw [A_eq m c 5]; try rfl)
theorem before0_6 (c : Dev nD) (t : Fin cfg0.N) (d) : (dats m 0 c).before 6 t d = iblk m c 6 t := by
  exact ((dats m 0 c).before_in_eq_fetched 6 rfl (fun _ => rfl) (fun _ _ _ => rfl)
    (fun t => by rw [after0_6]; unfold Dat.blockOf iblk; rw [A_eq m c 6]; try rfl) t d).trans
    (by unfold Dat.fetched Dat.blockOf iblk; rw [A_eq m c 6]; try rfl)

/-- A 21-plane block filled out with any other filler is the same buffer contents (nothing of the filler is left). -/
theorem fill0_0 (c : Dev nD) (t : Fin cfg0.N) (d : S21x32x1024.Idx → Elt F .f32) :
    win0_0.fill (grid0.coords t) d (iblk m c 0 t) = fblk0 m c t := by
  exact Pipeline.fill_of_clip_none (cfg := cfg0) 0 _ (clip0_0 t) d _ _
theorem fill0_1 (c : Dev nD) (t : Fin cfg0.N) (d : S21x32x1024.Idx → Elt F .f32) :
    win0_1.fill (grid0.coords t) d (iblk m c 1 t) = fblk1 m c t := by
  exact Pipeline.fill_of_clip_none (cfg := cfg0) 1 _ (clip0_1 t) d _ _
/-- Cutting the filled block back gives the block. -/
theorem cut0_0 (c : Dev nD) (t : Fin cfg0.N) : win0_0.cut (grid0.coords t) (fblk0 m c t) = iblk m c 0 t := by
  exact Window.cut_fill win0_0 (grid0.coords t) _ (iblk m c 0 t)
theorem cut0_1 (c : Dev nD) (t : Fin cfg0.N) : win0_1.cut (grid0.coords t) (fblk1 m c t) = iblk m c 1 t := by
  exact Window.cut_fill win0_1 (grid0.coords t) _ (iblk m c 1 t)

end Cert.KernelIdeal.Hand

end
-- ==== Proof.IObligation.lean ====
/-
  The body obligation at a generic grid point: each input buffer arrives holding its block, so the body's triple
  applies; the two 21-plane windows' buffers are handed back stated on the part of the block inside the array, which
  here is the whole block.
-/
import proofs.«145467_g2000303719555550_pallasbulk_618_22_alg».proof.Proof.IBody
import proofs.«145467_g2000303719555550_pallasbulk_618_22_alg».proof.Proof.IBefore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_obligation (c : Dev nD) : BodyObligationLoose (dats (F := F) m 0 c) (defs₀ (F := F)) Variants.none () Set.univ := fun t => by
  rw [bigSep_W0, bigSep_W0]
  -- no point is idle; windows 0 and 1 are handed back stated on the part of the block inside the array, the
  -- other six exactly; the invariant is `emp` and nothing is owed at either position
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3, before0_4 m c t d4,
    before0_5 m c t d5, before0_6 m c t d6]
  rw [after0_0, after0_1, after0_2, after0_3, after0_4, after0_5, after0_6, after0_7]
  iapply (sound_kernel c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (fblk0 m c t) (fblk1 m c t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  -- the two 21-plane buffers hold their blocks filled out; cut back to the part inside the array and filled out
  -- again with the filler they came with, they are the same contents
  isplitl [H0]
  · iexists d0
    change _ ⊢ owns (c : Thread nD τ) (stage0_0 (cfg0.slots t 0)) fullShare
      (win0_0.fill (grid0.coords t) d0 (win0_0.cut (grid0.coords t) (fblk0 m c t)))
    rw [cut0_0, fill0_0]
  isplitl [H1]
  · iexists d1
    change _ ⊢ owns (c : Thread nD τ) (stage0_1 (cfg0.slots t 1)) fullShare
      (win0_1.fill (grid0.coords t) d1 (win0_1.cut (grid0.coords t) (fblk1 m c t)))
    rw [cut0_1, fill0_1]
  isplitl [H2]; · iexact H2
  isplitl [H3]; · iexact H3
  isplitl [H4]; · iexact H4
  isplitl [H5]; · iexact H5
  isplitl [H6]; · iexact H6
  iexact H7

end Cert.KernelIdeal.Hand

end
-- ==== Proof.IHost.lean ====
/-
  The three host operations before the call: what they leave untouched. None writes an argument array, so the call
  finds every argument as launched.
-/
import proofs.«145467_g2000303719555550_pallasbulk_618_22_alg».proof.Proof.IData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

/-- The program up to the call: the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is none of the three arrays the host operations write keeps its launch contents. -/
theorem V_of_not_written (c : Dev nD) (r : Ref sig .tc) (h0 : r ≠ main_v0) (h1 : r ≠ main_v1) (h2 : r ≠ main_v2) :
    V m c r = m ((c : Thread nD τ).loc r) :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

theorem V_main_arg0 (c : Dev nD) : V m c main_arg0 = m ((c : Thread nD τ).loc main_arg0) :=
  V_of_not_written m c main_arg0 (by decide) (by decide) (by decide)
theorem V_main_arg1 (c : Dev nD) : V m c main_arg1 = m ((c : Thread nD τ).loc main_arg1) :=
  V_of_not_written m c main_arg1 (by decide) (by decide) (by decide)
theorem V_main_arg2 (c : Dev nD) : V m c main_arg2 = m ((c : Thread nD τ).loc main_arg2) :=
  V_of_not_written m c main_arg2 (by decide) (by decide) (by decide)
theorem V_main_arg3 (c : Dev nD) : V m c main_arg3 = m ((c : Thread nD τ).loc main_arg3) :=
  V_of_not_written m c main_arg3 (by decide) (by decide) (by decide)
theorem V_main_arg4 (c : Dev nD) : V m c main_arg4 = m ((c : Thread nD τ).loc main_arg4) :=
  V_of_not_written m c main_arg4 (by decide) (by decide) (by decide)

end Cert.KernelIdeal.Hand

end
-- ==== Proof.ISplit.lean ====
/-
  How the launch's holdings become the pipeline's: the buffers behind the windows' arrays, each whole, are the
  windows' arrays at the shares the proof data names. The activations array is read by three windows: its full share
  is split into a half and two quarters; every other array has one window and goes whole.
-/
import proofs.«145467_g2000303719555550_pallasbulk_618_22_alg».proof.Proof.IData
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six distinct buffers behind the eight windows' arrays. -/
theorem arr_image : (Finset.univ.image (Pipeline.arrRef spec0) : Finset (Ref sig .tc))
    = [main_v1, main_arg1, main_arg2, main_v2, main_arg4, main_v3].toFinset := by decide

/-- Those six buffers, each whole at what the call finds, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_v1) ↦{fullShare} V m c main_v1) ∗ (((c : Thread nD τ).loc main_arg1) ↦{fullShare} V m c main_arg1)
          ∗ (((c : Thread nD τ).loc main_arg2) ↦{fullShare} V m c main_arg2) ∗ (((c : Thread nD τ).loc main_v2) ↦{fullShare} V m c main_v2)
          ∗ (((c : Thread nD τ).loc main_arg4) ↦{fullShare} V m c main_arg4) ∗ (((c : Thread nD τ).loc main_v3) ↦{fullShare} V m c main_v3)) := by
  unfold Pipeline.arrBufs
  exact bigSep_eq_bigSepL_of_eq [main_v1, main_arg1, main_arg2, main_v2, main_arg4, main_v3] arr_image (by decide) _

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have e0 : (cfg0.win 0).arr.view.set = Finset.univ := (arr_whole0 0).set_eq_univ
  have e1 : (cfg0.win 1).arr.view.set = Finset.univ := (arr_whole0 1).set_eq_univ
  have e2 : (cfg0.win 2).arr.view.set = Finset.univ := (arr_whole0 2).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  have e7 : (cfg0.win 7).arr.view.set = Finset.univ := (arr_whole0 7).set_eq_univ
  have s0 : (dats m 0 c).share 0 = fullShare.left := rfl
  have s1 : (dats m 0 c).share 1 = fullShare.right.left := rfl
  have s2 : (dats m 0 c).share 2 = fullShare.right.right := rfl
  have s3 : (dats m 0 c).share 3 = fullShare := rfl
  have s4 : (dats m 0 c).share 4 = fullShare := rfl
  have s5 : (dats m 0 c).share 5 = fullShare := rfl
  have s6 : (dats m 0 c).share 6 = fullShare := rfl
  have s7 : (dats m 0 c).share 7 = fullShare := rfl
  simp only [e0, e1, e2, e3, e4, e5, e6, e7, s0, s1, s2, s3, s4, s5, s6, s7]
  iintro ⟨H1, Ha1, Ha2, Hv2, Ha4, Hv3⟩
  -- the activations array, read by three windows: a half, then the other half in two quarters
  ihave H1 := (pointsTo_share (PosShare.mem_left_op_right fullShare)).1 $$ H1
  icases H1 with ⟨H10, H1r⟩
  ihave H1r := (pointsTo_share (PosShare.mem_left_op_right fullShare.right)).1 $$ H1r
  icases H1r with ⟨H11, H12⟩
  isplitl [H10]; · iexact H10
  isplitl [H11]; · iexact H11
  isplitl [H12]; · iexact H12
  isplitl [Ha1]; · iexact Ha1
  isplitl [Ha2]; · iexact Ha2
  isplitl [Hv2]; · iexact Hv2
  isplitl [Ha4]; · iexact Ha4
  iexact Hv3

end Cert.KernelIdeal.Hand

end
-- ==== Proof.IRun.lean ====
/-
  The run: at the compiled mesh, from any memory with zero counters, every weakly fair execution of the program
  terminates; every array of the call ends at what the proof data computes (an input as the call found it, the logits
  array overwritten block by block) and every other array as the call found it. Read at the arguments this is the
  frame; read at the result it names the logits array.
-/
import proofs.«145467_g2000303719555550_pallasbulk_618_22_alg».proof.Proof.IObligation
import proofs.«145467_g2000303719555550_pallasbulk_618_22_alg».proof.Proof.IHost
import proofs.«145467_g2000303719555550_pallasbulk_618_22_alg».proof.Proof.ISplit
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's rounds algebra, embedded in the program's ghost state. -/
abbrev EP : Emb (UR sig nD τ) (MT nD τ sig Unit (Elt F) ℕ (UR sig nD τ) ℕ) := emb₁

set_option backward.isDefEq.respectTransparency.types false in
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro HZ; isplitr; · iempintro
                       iexact HZ)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      (((h c).1 3).trans ((dats m 0 c).arrAt_in 3 rfl _)).trans ((A_eq m c 3).trans (V_main_arg1 m c)),
      (((h c).1 4).trans ((dats m 0 c).arrAt_in 4 rfl _)).trans ((A_eq m c 4).trans (V_main_arg2 m c)),
      ((h c).2 main_arg3 (Pipeline.mem_restRefs_of main_arg3 (by decide) (by decide))).trans (V_main_arg3 m c),
      (((h c).1 6).trans ((dats m 0 c).arrAt_in 6 rfl _)).trans ((A_eq m c 6).trans (V_main_arg4 m c))⟩)
    (run_main m ρ)

theorem run_value : θ_run defs (onTc (τ := τ) (main (F := F))) ⟨m, fun _ => 0, ρ⟩ (fun r => ∀ c : Dev nD,
      r.2.mem ((c.tc : Thread nD τ).loc main_v3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1 7,
      ((h c).2 main_arg0 (Pipeline.mem_restRefs_of main_arg0 (by decide) (by decide))).trans (V_main_arg0 m c),
      (((h c).1 3).trans ((dats m 0 c).arrAt_in 3 rfl _)).trans ((A_eq m c 3).trans (V_main_arg1 m c)),
      (((h c).1 4).trans ((dats m 0 c).arrAt_in 4 rfl _)).trans ((A_eq m c 4).trans (V_main_arg2 m c)),
      ((h c).2 main_arg3 (Pipeline.mem_restRefs_of main_arg3 (by decide) (by decide))).trans (V_main_arg3 m c),
      (((h c).1 6).trans ((dats m 0 c).arrAt_in 6 rfl _)).trans ((A_eq m c 6).trans (V_main_arg4 m c))⟩)
    (run_main m ρ)

end Cert.KernelIdeal.Hand

end
-- ==== Proof.IBlocks.lean ====
/-
  The blocks in closed form: entry (a, r, ch) of a block of the activations' windows at grid point t is plane a (resp.
  21 + a, 42 + a) of sample 32 t + r, channel ch, of the spatial-major array; the weights' and biases' blocks are the
  whole arrays.
-/
import proofs.«145467_g2000303719555550_pallasbulk_618_22_alg».proof.Proof.IData
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Row r of grid point t's block is sample 32 t + r. -/
def samp (t : Fin cfg0.N) (r : Fin 32) : Fin 256 := ⟨32 * t.val + r.val, by
  have h1 : t.val < 8 := Nat.lt_of_lt_of_eq t.isLt N_0
  have := r.isLt; omega⟩
/-- Plane a of the first window, 21 + a of the second, 42 + a of the third. -/
def pl0 (a : Fin 21) : Fin 49 := ⟨a.val, by have := a.isLt; omega⟩
def pl1 (a : Fin 21) : Fin 49 := ⟨21 + a.val, by have := a.isLt; omega⟩
def pl2 (a : Fin 7) : Fin 49 := ⟨42 + a.val, by have := a.isLt; omega⟩

/-- The printed index maps over the grid: the three windows on the activations sit at plane-block 0, 1 and 6 (of 21, 21
    and 7 planes), at sample-block t and at channel-block 0; the weights' and biases' windows at block 0 on both axes. -/
private theorem index0_0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
private theorem index0_1 : ∀ t : Fin cfg0.N, win0_1.index t (0 : Fin 3) = 1 ∧ win0_1.index t (1 : Fin 3) = t.val ∧ win0_1.index t (2 : Fin 3) = 0 :=
  (by decide +kernel : ∀ t : Fin grid0.N, win0_1.index t (0 : Fin 3) = 1 ∧ win0_1.index t (1 : Fin 3) = t.val ∧ win0_1.index t (2 : Fin 3) = 0)
private theorem index0_2 : ∀ t : Fin cfg0.N, win0_2.index t (0 : Fin 3) = 6 ∧ win0_2.index t (1 : Fin 3) = t.val ∧ win0_2.index t (2 : Fin 3) = 0 :=
  (by decide +kernel : ∀ t : Fin grid0.N, win0_2.index t (0 : Fin 3) = 6 ∧ win0_2.index t (1 : Fin 3) = t.val ∧ win0_2.index t (2 : Fin 3) = 0)
private theorem index0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
private theorem index0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
private theorem index0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
private theorem index0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Neither 21-plane window is cut at any grid point: every entry of its block is moved. -/
private theorem uncut0_0 : ∀ (t : Fin cfg0.N) (x : Fin 3), win0_0.clip (grid0.coords t) x = none :=
  (by decide +kernel : ∀ (t : Fin grid0.N) (x : Fin 3), win0_0.clip (grid0.coords t) x = none)
private theorem uncut0_1 : ∀ (t : Fin cfg0.N) (x : Fin 3), win0_1.clip (grid0.coords t) x = none :=
  (by decide +kernel : ∀ (t : Fin grid0.N) (x : Fin 3), win0_1.clip (grid0.coords t) x = none)

theorem fblk0_apply (c : Dev nD) (t : Fin cfg0.N) (a : Fin 21) (r : Fin 32) (ch : Fin 1024) :
    fblk0 m c t (ix3 a r ch) = (V m c main_v1 : S49x256x1024.Idx → Elt F .f32) (ix3 (pl0 a) (samp t r) ch) := by
  obtain ⟨e0, e1, e2⟩ := index0_0 t
  have hm : win0_0.moved (grid0.coords t) (ix3 a r ch) = true :=
    (win0_0.moved_iff _ _).mpr fun x =>
      Nat.lt_of_lt_of_eq (ix3 a r ch x).isLt
        (congrArg (fun k => Pipeline.Clip.extent k (S21x32x1024.size x)) (uncut0_0 t x)).symm
  unfold fblk0 Window.fill
  rw [dif_pos hm]
  show (V m c main_v1 : S49x256x1024.Idx → Elt F .f32) (((cfg0.win 0).blk t).view.emb _) = _
  refine congrArg _ ?_
  funext x; apply Fin.ext
  match x with
  | ⟨0, _⟩ => show win0_0.index t (0 : Fin 3) * 21 + 1 * a.val = a.val; omega
  | ⟨1, _⟩ => show win0_0.index t (1 : Fin 3) * 32 + 1 * r.val = 32 * t.val + r.val; omega
  | ⟨2, _⟩ => show win0_0.index t (2 : Fin 3) * 1024 + 1 * ch.val = ch.val; omega
theorem fblk1_apply (c : Dev nD) (t : Fin cfg0.N) (a : Fin 21) (r : Fin 32) (ch : Fin 1024) :
    fblk1 m c t (ix3 a r ch) = (V m c main_v1 : S49x256x1024.Idx → Elt F .f32) (ix3 (pl1 a) (samp t r) ch) := by
  obtain ⟨e0, e1, e2⟩ := index0_1 t
  have hm : win0_1.moved (grid0.coords t) (ix3 a r ch) = true :=
    (win0_1.moved_iff _ _).mpr fun x =>
      Nat.lt_of_lt_of_eq (ix3 a r ch x).isLt
        (congrArg (fun k => Pipeline.Clip.extent k (S21x32x1024.size x)) (uncut0_1 t x)).symm
  unfold fblk1 Window.fill
  rw [dif_pos hm]
  show (V m c main_v1 : S49x256x1024.Idx → Elt F .f32) (((cfg0.win 1).blk t).view.emb _) = _
  refine congrArg _ ?_
  funext x; apply Fin.ext
  match x with
  | ⟨0, _⟩ => show win0_1.index t (0 : Fin 3) * 21 + 1 * a.val = 21 + a.val; omega
  | ⟨1, _⟩ => show win0_1.index t (1 : Fin 3) * 32 + 1 * r.val = 32 * t.val + r.val; omega
  | ⟨2, _⟩ => show win0_1.index t (2 : Fin 3) * 1024 + 1 * ch.val = ch.val; omega
theorem iblk2_apply (c : Dev nD) (t : Fin cfg0.N) (a : Fin 7) (r : Fin 32) (ch : Fin 1024) :
    (iblk m c 2 t : S7x32x1024.Idx → Elt F .f32) (ix3 a r ch) = (V m c main_v1 : S49x256x1024.Idx → Elt F .f32) (ix3 (pl2 a) (samp t r) ch) := by
  obtain ⟨e0, e1, e2⟩ := index0_2 t
  show (V m c main_v1 : S49x256x1024.Idx → Elt F .f32) (((cfg0.win 2).blk t).view.emb (ix3 a r ch)) = _
  refine congrArg _ ?_
  funext x; apply Fin.ext
  match x with
  | ⟨0, _⟩ => show win0_2.index t (0 : Fin 3) * 7 + 1 * a.val = 42 + a.val; omega
  | ⟨1, _⟩ => show win0_2.index t (1 : Fin 3) * 32 + 1 * r.val = 32 * t.val + r.val; omega
  | ⟨2, _⟩ => show win0_2.index t (2 : Fin 3) * 1024 + 1 * ch.val = ch.val; omega
theorem iblk3_eq (c : Dev nD) (t : Fin cfg0.N) : (iblk m c 3 t : S1024x512.Idx → Elt F .f32) = (V m c main_arg1 : S1024x512.Idx → Elt F .f32) := by
  obtain ⟨e0, e1⟩ := index0_3 t
  funext j
  show (V m c main_arg1 : S1024x512.Idx → Elt F .f32) (((cfg0.win 3).blk t).view.emb j) = (V m c main_arg1 : S1024x512.Idx → Elt F .f32) j
  refine congrArg _ ?_
  funext x; apply Fin.ext
  match x with
  | ⟨0, _⟩ => show win0_3.index t (0 : Fin 2) * 1024 + 1 * (j 0).val = (j 0).val; omega
  | ⟨1, _⟩ => show win0_3.index t (1 : Fin 2) * 512 + 1 * (j 1).val = (j 1).val; omega
theorem iblk4_eq (c : Dev nD) (t : Fin cfg0.N) : (iblk m c 4 t : S1x512.Idx → Elt F .f32) = (V m c main_arg2 : S1x512.Idx → Elt F .f32) := by
  obtain ⟨e0, e1⟩ := index0_4 t
  funext j
  show (V m c main_arg2 : S1x512.Idx → Elt F .f32) (((cfg0.win 4).blk t).view.emb j) = (V m c main_arg2 : S1x512.Idx → Elt F .f32) j
  refine congrArg _ ?_
  funext x; apply Fin.ext
  match x with
  | ⟨0, _⟩ => show win0_4.index t (0 : Fin 2) * 1 + 1 * (j 0).val = (j 0).val; omega
  | ⟨1, _⟩ => show win0_4.index t (1 : Fin 2) * 512 + 1 * (j 1).val = (j 1).val; omega
theorem iblk5_eq (c : Dev nD) (t : Fin cfg0.N) : (iblk m c 5 t : S1000x512.Idx → Elt F .f32) = (V m c main_v2 : S1000x512.Idx → Elt F .f32) := by
  obtain ⟨e0, e1⟩ := index0_5 t
  funext j
  show (V m c main_v2 : S1000x512.Idx → Elt F .f32) (((cfg0.win 5).blk t).view.emb j) = (V m c main_v2 : S1000x512.Idx → Elt F .f32) j
  refine congrArg _ ?_
  funext x; apply Fin.ext
  match x with
  | ⟨0, _⟩ => show win0_5.index t (0 : Fin 2) * 1000 + 1 * (j 0).val = (j 0).val; omega
  | ⟨1, _⟩ => show win0_5.index t (1 : Fin 2) * 512 + 1 * (j 1).val = (j 1).val; omega
theorem iblk6_eq (c : Dev nD) (t : Fin cfg0.N) : (iblk m c 6 t : S1x1000.Idx → Elt F .f32) = (V m c main_arg4 : S1x1000.Idx → Elt F .f32) := by
  obtain ⟨e0, e1⟩ := index0_6 t
  funext j
  show (V m c main_arg4 : S1x1000.Idx → Elt F .f32) (((cfg0.win 6).blk t).view.emb j) = (V m c main_arg4 : S1x1000.Idx → Elt F .f32) j
  refine congrArg _ ?_
  funext x; apply Fin.ext
  match x with
  | ⟨0, _⟩ => show win0_6.index t (0 : Fin 2) * 1 + 1 * (j 0).val = (j 0).val; omega
  | ⟨1, _⟩ => show win0_6.index t (1 : Fin 2) * 1000 + 1 * (j 1).val = (j 1).val; omega

end Cert.KernelIdeal.Hand

end
-- ==== Proof.Spec.lean ====
/-
  The function both programs compute, over the extended reals.

  For a sample n and a class k:
    pooled(n, c)  = (sum over the 49 spatial positions h of x(n, c, h / 7, h mod 7)) * s
    feature(n, f) = max (sum over the 1024 channels c of pooled(n, c) * wf(c, f) + bf(f), 0)
    logit(n, k)   = sum over the 512 features f of feature(n, f) * wc(f, k) + bc(k)
  where s is the single-precision number both programs spell for 1/49 (the same word on both sides, never evaluated).
  Also here: a sum over 49 positions is the sum of its first 21, its next 21 and its last 7 terms, in any
  commutative monoid (the extended reals under addition are one, so no finiteness is needed).
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- The scale: the single-precision word both programs multiply the spatial sum by. -/
def scale : EReal := Ideal.ofBits .f32 0x3CA72F05#32

/-- Spatial position h of the flattened 7 x 7 map is row h / 7, column h mod 7. -/
def hrow (h : Fin 49) : Fin 7 := ⟨h.val / 7, by have := h.isLt; omega⟩
def hcol (h : Fin 49) : Fin 7 := ⟨h.val % 7, by have := h.isLt; omega⟩

/-- The scaled spatial sum of sample n, channel c. -/
def pooled (x : FVec Ideal ⟨4, ![256, 1024, 7, 7]⟩ .f32) (n : Fin 256) (c : Fin 1024) : EReal :=
  (∑ h : Fin 49, x (ix4 n c (hrow h) (hcol h))) * scale

/-- Feature f of sample n: the first linear layer and the rectifier. -/
def feature (x : FVec Ideal ⟨4, ![256, 1024, 7, 7]⟩ .f32) (wf : FVec Ideal ⟨2, ![1024, 512]⟩ .f32) (bf : FVec Ideal ⟨2, ![1, 512]⟩ .f32)
    (n : Fin 256) (f : Fin 512) : EReal :=
  max ((∑ c : Fin 1024, pooled x n c * wf (ix2 c f)) + bf (ix2 0 f)) 0

/-- Logit k of sample n: the second linear layer. -/
def logit (x : FVec Ideal ⟨4, ![256, 1024, 7, 7]⟩ .f32) (wf : FVec Ideal ⟨2, ![1024, 512]⟩ .f32) (bf : FVec Ideal ⟨2, ![1, 512]⟩ .f32)
    (wc : FVec Ideal ⟨2, ![512, 1000]⟩ .f32) (bc : FVec Ideal ⟨2, ![1, 1000]⟩ .f32) (n : Fin 256) (k : Fin 1000) : EReal :=
  (∑ f : Fin 512, feature x wf bf n f * wc (ix2 f k)) + bc (ix2 0 k)

/-- The whole result array. -/
def logits (x : FVec Ideal ⟨4, ![256, 1024, 7, 7]⟩ .f32) (wf : FVec Ideal ⟨2, ![1024, 512]⟩ .f32) (bf : FVec Ideal ⟨2, ![1, 512]⟩ .f32)
    (wc : FVec Ideal ⟨2, ![512, 1000]⟩ .f32) (bc : FVec Ideal ⟨2, ![1, 1000]⟩ .f32) : FVec Ideal ⟨2, ![256, 1000]⟩ .f32 :=
  fun i => logit x wf bf wc bc (i 0) (i 1)

theorem logits_ix2 (x : FVec Ideal ⟨4, ![256, 1024, 7, 7]⟩ .f32) (wf : FVec Ideal ⟨2, ![1024, 512]⟩ .f32) (bf : FVec Ideal ⟨2, ![1, 512]⟩ .f32)
    (wc : FVec Ideal ⟨2, ![512, 1000]⟩ .f32) (bc : FVec Ideal ⟨2, ![1, 1000]⟩ .f32) (n : Fin 256) (k : Fin 1000) :
    logits x wf bf wc bc (ix2 n k) = logit x wf bf wc bc n k := rfl

/-- Position 21 + a, and position 42 + a. -/
def mid (a : Fin 21) : Fin 49 := ⟨21 + a.val, by have := a.isLt; omega⟩
def tail (a : Fin 7) : Fin 49 := ⟨42 + a.val, by have := a.isLt; omega⟩
def head (a : Fin 21) : Fin 49 := ⟨a.val, by have := a.isLt; omega⟩

/-- A sum over the 49 positions, split 21 + 21 + 7. -/
theorem sum_split {M : Type*} [AddCommMonoid M] (g : Fin 49 → M) :
    (∑ a : Fin 21, g (head a)) + (∑ a : Fin 21, g (mid a)) + (∑ a : Fin 7, g (tail a)) = ∑ h : Fin 49, g h := by
  have h1 : (∑ h : Fin 49, g h) = ∑ h : Fin (21 + 21 + 7), g (Fin.cast (by norm_num) h) := by
    rw [← Equiv.sum_comp (finCongr (by norm_num : 21 + 21 + 7 = 49)) g]; rfl
  rw [h1, Fin.sum_univ_add, Fin.sum_univ_add]
  refine congrArg₂ (· + ·) (congrArg₂ (· + ·) ?_ ?_) ?_
  · exact Finset.sum_congr rfl fun a _ => congrArg g (Fin.ext rfl)
  · exact Finset.sum_congr rfl fun a _ => congrArg g (Fin.ext (by simp [mid, Nat.add_comm]))
  · exact Finset.sum_congr rfl fun a _ => congrArg g (Fin.ext (by simp [tail]))

end Cert.Spec

end
-- ==== Proof.IHostVal.lean ====
/-
  The two arrays the host operations build before the call, read at an index: plane h of the spatial-major array is
  spatial position (h / 7, h mod 7) of the activations; the classifier matrix is transposed.
-/
import proofs.«145467_g2000303719555550_pallasbulk_618_22_alg».proof.Proof.IData
import proofs.«145467_g2000303719555550_pallasbulk_618_22_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem V_main_v1_apply (c : Dev nD) (h : Fin 49) (n : Fin 256) (ch : Fin 1024) :
    (V m c main_v1 : S49x256x1024.Idx → Elt F .f32) (ix3 h n ch)
      = (m ((c : Thread nD τ).loc main_arg0) : S256x1024x7x7.Idx → Elt F .f32) (ix4 n ch (Cert.Spec.hrow h) (Cert.Spec.hcol h)) := by
  -- the array is the activations, transposed to spatial-major and flattened over the two spatial axes
  have e : (V m c main_v1 : S49x256x1024.Idx → Elt F .f32)
      = shapeCast S49x256x1024
          (transpose S7x7x256x1024 [2, 3, 0, 1] (m ((c : Thread nD τ).loc main_arg0) : S256x1024x7x7.Idx → Elt F .f32)
            transposes_S256x1024x7x7_S7x7x256x1024_2_3_0_1)
          shapeCasts_S7x7x256x1024_S49x256x1024 := by
    dsimp only [V, hostOps0]
    after_results
    rfl
  rw [e]
  -- plane h of the flattened array is position (h / 7, h mod 7): same row-major position
  refine (shapeCast_apply _ _ (ix3 h n ch) (ix4 (Cert.Spec.hrow h) (Cert.Spec.hcol h) n ch) ?_).trans ?_
  · rw [Shape.rowMajor_val_four, Shape.rowMajor_val_three]
    show (((h.val / 7) * 7 + h.val % 7) * 256 + n.val) * 1024 + ch.val = (h.val * 256 + n.val) * 1024 + ch.val
    have := Nat.div_add_mod h.val 7
    omega
  · exact transpose_apply _ _ _ (ix4 (Cert.Spec.hrow h) (Cert.Spec.hcol h) n ch) (ix4 n ch (Cert.Spec.hrow h) (Cert.Spec.hcol h))
      fun b => match b with | ⟨0, _⟩ => rfl | ⟨1, _⟩ => rfl | ⟨2, _⟩ => rfl | ⟨3, _⟩ => rfl

theorem V_main_v2_apply (c : Dev nD) (k : Fin 1000) (f : Fin 512) :
    (V m c main_v2 : S1000x512.Idx → Elt F .f32) (ix2 k f)
      = (m ((c : Thread nD τ).loc main_arg3) : S512x1000.Idx → Elt F .f32) (ix2 f k) := by
  -- the array is the classifier matrix transposed
  have e : (V m c main_v2 : S1000x512.Idx → Elt F .f32)
      = transpose S1000x512 [1, 0] (m ((c : Thread nD τ).loc main_arg3) : S512x1000.Idx → Elt F .f32)
          transposes_S512x1000_S1000x512_1_0 := by
    dsimp only [V, hostOps0]
    after_results
  rw [e]
  exact transpose_apply _ _ _ (ix2 k f) (ix2 f k) fun b => match b with | ⟨0, _⟩ => rfl | ⟨1, _⟩ => rfl

end Cert.KernelIdeal.Hand

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.IPayload.lean ====
/-
  The kernel body's arithmetic at an entry, over the extended reals: entry (r, k) of the stored block is
  sum over f of max (sum over c of ((three partial spatial sums) * s) * wf(c, f) + bf(f), 0) * wcT(k, f) + bc(k),
  the rounding to the half-width format before each matrix product being the identity here.
-/
import proofs.«145467_g2000303719555550_pallasbulk_618_22_alg».proof.Proof.Gen.KernelIdeal.Skeleton
import proofs.«145467_g2000303719555550_pallasbulk_618_22_alg».proof.Proof.Spec
import proofs.«145467_g2000303719555550_pallasbulk_618_22_alg».proof.Proof.LibDot
import proofs.«145467_g2000303719555550_pallasbulk_618_22_alg».proof.Proof.LibDotT
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.ValueIdx

/-- A sum over the leading axis of a three-axis block, read at (r, c): the sum over that axis's coordinate. -/
theorem sum_lead_apply {n R C : Nat} (x : FVec Ideal ⟨3, ![n, R, C]⟩ .f32)
    (h : (⟨3, ![n, R, C]⟩ : Shape).Reduces [0] ⟨2, ![R, C]⟩) (hφ : FKind.Formats .f32)
    (hacc : (0x00000000#32 : BitVec 32) = FKind.add.neutral .f32 hφ) (r : Fin R) (c : Fin C) :
    multiReduction (F := Ideal) .add [0] ⟨2, ![R, C]⟩ x 0x00000000#32 h hφ hacc (ix2 r c) = ∑ a : Fin n, x (ix3 a r c) := by
  refine (Ideal.multiReduction_add_single x _ h hφ hacc (ix2 r c)).trans ?_
  show (∑ a : Fin n, x (h.lift (ix2 r c) a)) = _
  refine Finset.sum_congr rfl fun a _ => congrArg x ?_
  funext b; apply Fin.ext
  fin_cases b <;> rfl

/-- The single-precision zero word is the extended real zero. -/
theorem zero_word : FloatOps.ofBits (F := Ideal) .f32 0x00000000#32 = (0 : Ideal .f32) := Ideal.ofBits_zero_f32

/-- The scale word is the specification's scale. -/
theorem scale_word : FloatOps.ofBits (F := Ideal) .f32 0x3CA72F05#32 = (Cert.Spec.scale : Ideal .f32) := rfl

theorem pay_apply (x0 x1 : Vec Ideal S21x32x1024 .f32) (x2 : Vec Ideal S7x32x1024 .f32) (wf : Vec Ideal S1024x512 .f32) (bf : Vec Ideal S1x512 .f32)
    (wcT : Vec Ideal S1000x512 .f32) (bc : Vec Ideal S1x1000 .f32) (r : Fin 32) (k : Fin 1000) :
    (k0_pay1 x0 x1 x2 wf bf wcT bc : S32x1000.Idx → EReal) (ix2 r k)
      = (∑ f : Fin 512, max ((∑ c : Fin 1024,
            (((∑ a : Fin 21, (x0 : S21x32x1024.Idx → EReal) (ix3 a r c)) + (∑ a : Fin 21, (x1 : S21x32x1024.Idx → EReal) (ix3 a r c))
              + (∑ a : Fin 7, (x2 : S7x32x1024.Idx → EReal) (ix3 a r c))) * Cert.Spec.scale) * (wf : S1024x512.Idx → EReal) (ix2 c f))
            + (bf : S1x512.Idx → EReal) (ix2 0 f)) 0 * (wcT : S1000x512.Idx → EReal) (ix2 k f))
        + (bc : S1x1000.Idx → EReal) (ix2 0 k) := by
  unfold k0_pay1
  rw [addf_apply, broadcastTo_1b_ab_apply]
  simp only [matmul]
  rw [Cert.LibDotT.matmul_zero_at_T dot_S32x512_S1000x512_S32x1000_1_1_0_0_n_n rfl rfl rfl rfl rfl rfl]
  refine congrArg₂ (· + ·) (Finset.sum_congr rfl fun f _ => ?_) rfl
  rw [truncf_apply, truncf_apply, shapeCast_self wcT, maximumf_apply, broadcast_apply, zero_word, addf_apply,
    broadcastTo_1b_ab_apply, Cert.LibDot.matmul_zero_at dot_S32x1024_S1024x512_S32x512_1_0_0_1_n_n rfl rfl rfl rfl rfl rfl]
  refine congrArg₂ (· * ·) (congrArg₂ max (congrArg₂ (· + ·) (Finset.sum_congr rfl fun c _ => ?_) rfl) rfl) rfl
  rw [truncf_apply, truncf_apply, mulf_apply, broadcast_apply, scale_word, addf_apply, addf_apply,
    shapeCast_self x0, shapeCast_self x1, shapeCast_self x2]
  refine congrArg₂ (· * ·) (congrArg₂ (· * ·) (congrArg₂ (· + ·) (congrArg₂ (· + ·) ?_ ?_) ?_) rfl) rfl
  · exact sum_lead_apply x0 _ _ _ r c
  · exact sum_lead_apply x1 _ _ _ r c
  · exact sum_lead_apply x2 _ _ _ r c

end Cert.KernelIdeal.Hand

end
-- ==== Proof.IValue.lean ====
/-
  The logits array after the call is the specification's function of the arguments: block t of the array is what
  point t stored, the eight blocks of 32 rows cover the 256 rows, and entry (r, k) of point t's store is logit k of
  sample 32 t + r (the three partial spatial sums add up to the whole one).
-/
import proofs.«145467_g2000303719555550_pallasbulk_618_22_alg».proof.Proof.IBlocks
import proofs.«145467_g2000303719555550_pallasbulk_618_22_alg».proof.Proof.IHostVal
import proofs.«145467_g2000303719555550_pallasbulk_618_22_alg».proof.Proof.IHost
import proofs.«145467_g2000303719555550_pallasbulk_618_22_alg».proof.Proof.IPayload
import proofs.«145467_g2000303719555550_pallasbulk_618_22_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Small facts -/

theorem hz2 : (![0, 0] : Fin 2 → Nat) = fun _ => 0 := funext fun a => by fin_cases a <;> rfl
theorem hz3 : (![0, 0, 0] : Fin 3 → Nat) = fun _ => 0 := funext fun a => by fin_cases a <;> rfl

/-- The specification's array of the launch contents of core `c`. -/
abbrev specArr (m : (ℓ : Loc nD τ sig) → Buf (Elt Ideal) ℓ) (c : Dev nD) : S256x1000.Idx → EReal :=
  Cert.Spec.logits (m ((c : Thread nD τ).loc main_arg0)) (m ((c : Thread nD τ).loc main_arg1)) (m ((c : Thread nD τ).loc main_arg2))
    (m ((c : Thread nD τ).loc main_arg3)) (m ((c : Thread nD τ).loc main_arg4))

/-- The logits' window at point `t` is block `(t, 0)`. -/
theorem logits_index : ∀ t : Fin cfg0.N, win0_7.index t (0 : Fin 2) = t.val ∧ win0_7.index t (1 : Fin 2) = 0 :=
  (by decide +kernel : ∀ t : Fin grid0.N, _)

/-! ## Entry (r, k) of what point t stores is logit k of sample 32 t + r -/

/-- The spatial-major array the call finds, and the activations as launched, at their literal types. -/
abbrev planes (m : (ℓ : Loc nD τ sig) → Buf (Elt Ideal) ℓ) (c : Dev nD) : S49x256x1024.Idx → EReal := V m c main_v1
abbrev acts (m : (ℓ : Loc nD τ sig) → Buf (Elt Ideal) ℓ) (c : Dev nD) : S256x1024x7x7.Idx → EReal := m ((c : Thread nD τ).loc main_arg0)

/-- The three partial spatial sums of the spatial-major array are the whole spatial sum of the activations. -/
theorem spatial_sum (m : (ℓ : Loc nD τ sig) → Buf (Elt Ideal) ℓ) (c : Dev nD) (n : Fin 256) (ch : Fin 1024) :
    (∑ a : Fin 21, planes m c (ix3 (pl0 a) n ch)) + (∑ a : Fin 21, planes m c (ix3 (pl1 a) n ch)) + (∑ a : Fin 7, planes m c (ix3 (pl2 a) n ch))
      = ∑ h : Fin 49, acts m c (ix4 n ch (Cert.Spec.hrow h) (Cert.Spec.hcol h)) := by
  refine Eq.trans ?_ (Cert.Spec.sum_split (fun h => acts m c (ix4 n ch (Cert.Spec.hrow h) (Cert.Spec.hcol h))))
  refine congrArg₂ (· + ·) (congrArg₂ (· + ·) (Finset.sum_congr rfl fun a _ => ?_) (Finset.sum_congr rfl fun a _ => ?_))
    (Finset.sum_congr rfl fun a _ => ?_)
  · exact V_main_v1_apply m c (pl0 a) n ch
  · exact V_main_v1_apply m c (pl1 a) n ch
  · exact V_main_v1_apply m c (pl2 a) n ch

theorem stored_entry (m : (ℓ : Loc nD τ sig) → Buf (Elt Ideal) ℓ) (c : Dev nD) (t : Fin cfg0.N) (r : Fin 32) (k : Fin 1000) :
    (k0_pay1 (fblk0 m c t) (fblk1 m c t) (iblk m c 2 t) (iblk m c 3 t) (iblk m c 4 t) (iblk m c 5 t) (iblk m c 6 t) : S32x1000.Idx → EReal) (ix2 r k)
      = Cert.Spec.logit (m ((c : Thread nD τ).loc main_arg0)) (m ((c : Thread nD τ).loc main_arg1)) (m ((c : Thread nD τ).loc main_arg2))
          (m ((c : Thread nD τ).loc main_arg3)) (m ((c : Thread nD τ).loc main_arg4)) (samp t r) k := by
  refine (pay_apply (fblk0 m c t) (fblk1 m c t) (iblk m c 2 t) (iblk m c 3 t) (iblk m c 4 t) (iblk m c 5 t) (iblk m c 6 t) r k).trans ?_
  simp only [fblk0_apply, fblk1_apply, iblk2_apply, iblk3_eq, iblk4_eq, iblk5_eq, iblk6_eq]
  unfold Cert.Spec.logit Cert.Spec.feature Cert.Spec.pooled
  refine congrArg₂ (· + ·) (Finset.sum_congr rfl fun f _ => ?_) ?_
  · refine congrArg₂ (· * ·) (congrArg (max · 0) (congrArg₂ (· + ·) (Finset.sum_congr rfl fun ch _ => ?_) ?_)) ?_
    · refine congrArg₂ (· * ·) (congrArg (· * Cert.Spec.scale) (spatial_sum m c (samp t r) ch)) ?_
      rw [V_main_arg1]
    · rw [V_main_arg2]
    · exact V_main_v2_apply m c k f
  · rw [V_main_arg4]

/-- Entry y of what point t stores is the specification's array at y's place in the array. -/
theorem stored_eq (m : (ℓ : Loc nD τ sig) → Buf (Elt Ideal) ℓ) (c : Dev nD) (t : Fin cfg0.N) (y : S32x1000.Idx) :
    (k0_pay1 (fblk0 m c t) (fblk1 m c t) (iblk m c 2 t) (iblk m c 3 t) (iblk m c 4 t) (iblk m c 5 t) (iblk m c 6 t) : S32x1000.Idx → EReal) y
      = specArr m c (((cfg0.win 7).blk t).view.emb y) := by
  obtain ⟨r, k, rfl⟩ : ∃ (r : Fin 32) (k : Fin 1000), y = ix2 r k := ⟨y 0, y 1, eq_ix2 y⟩
  refine (stored_entry m c t r k).trans ?_
  refine (Cert.Spec.logits_ix2 _ _ _ _ _ (samp t r) k).symm.trans (congrArg (specArr m c) ?_)
  obtain ⟨e0, e1⟩ := logits_index t
  funext a
  apply Fin.ext
  match a with
  | ⟨0, _⟩ => show 32 * t.val + r.val = win0_7.index t (0 : Fin 2) * 32 + 1 * r.val; rw [e0]; omega
  | ⟨1, _⟩ => show k.val = win0_7.index t (1 : Fin 2) * 1000 + 1 * k.val; rw [e1]; omega

/-! ## What point t writes back is block t of the specification's array -/

theorem flushed_eq (m : (ℓ : Loc nD τ sig) → Buf (Elt Ideal) ℓ) (c : Dev nD) (t : Fin cfg0.N) :
    (dats (F := Ideal) m 0 c).flushed 7 t = ((cfg0.win 7).blk t).view.read (Elt Ideal) (specArr m c) := by
  show (cfg0.win 7).cut (grid0.coords t) ((dats (F := Ideal) m 0 c).after 7 t) = _
  rw [after0_7]
  unfold out0_7
  rw [View.canon_unit_zero hz2]
  simp only [View.ld_unit_zero (S := S21x32x1024) hz3, View.ld_unit_zero (S := S7x32x1024) hz3, View.ld_unit_zero (S := S1024x512) hz2,
    View.ld_unit_zero (S := S1x512) hz2, View.ld_unit_zero (S := S1000x512) hz2, View.ld_unit_zero (S := S1x1000) hz2]
  funext y
  exact stored_eq m c t y

/-! ## The eight blocks cover the 256 rows -/

theorem mem_blk (t : Fin cfg0.N) (i : S256x1000.Idx) :
    i ∈ ((cfg0.win 7).blk t).view.set ↔ ∀ a : Fin 2, win0_7.index t a * S32x1000.size a ≤ (i a).val ∧ (i a).val < win0_7.index t a * S32x1000.size a + S32x1000.size a := by
  show i ∈ ((View.whole main_v3).slice (win0_7.rect t)).set ↔ _
  rw [View.set_slice_whole, Rect.mem_set_unit]
  exact Iff.rfl

theorem covered (i : S256x1000.Idx) : ∃ t : Fin cfg0.N, (cfg0.win 7).flush t = true ∧ i ∈ ((cfg0.win 7).blk t).view.set := by
  have hi0 : (i 0).val < 256 := (i 0).isLt
  have hi1 : (i 1).val < 1000 := (i 1).isLt
  have hN : cfg0.N = 8 := N_0
  refine ⟨⟨(i 0).val / 32, by rw [hN]; omega⟩, flush0_7 _, ?_⟩
  rw [mem_blk]
  obtain ⟨e0, e1⟩ := logits_index ⟨(i 0).val / 32, by rw [hN]; omega⟩
  intro a
  match a with
  | ⟨0, _⟩ =>
    show win0_7.index _ (0 : Fin 2) * 32 ≤ (i 0).val ∧ (i 0).val < win0_7.index _ (0 : Fin 2) * 32 + 32
    rw [e0]; show (i 0).val / 32 * 32 ≤ (i 0).val ∧ (i 0).val < (i 0).val / 32 * 32 + 32; omega
  | ⟨1, _⟩ =>
    show win0_7.index _ (1 : Fin 2) * 1000 ≤ (i 1).val ∧ (i 1).val < win0_7.index _ (1 : Fin 2) * 1000 + 1000
    rw [e1]; omega

/-! ## The array after the call -/

theorem final7 (m : (ℓ : Loc nD τ sig) → Buf (Elt Ideal) ℓ) (c : Dev nD) :
    ((dats (F := Ideal) m 0 c).arrAt 7 cfg0.N : S256x1000.Idx → EReal)
      = Cert.Spec.logits (m ((c : Thread nD τ).loc main_arg0)) (m ((c : Thread nD τ).loc main_arg1)) (m ((c : Thread nD τ).loc main_arg2))
          (m ((c : Thread nD τ).loc main_arg3)) (m ((c : Thread nD τ).loc main_arg4)) :=
  (dats (F := Ideal) m 0 c).arrAt_eq_of_cover 7 (specArr m c) (fun t _ => flushed_eq m c t) covered

end Cert.KernelIdeal.Hand

end
-- ==== Proof.RBlocks.lean ====
/-
  The reference's blocks in closed form: entry (r, ch, h) of the activations' block at grid point t is sample 24 t + r
  of the padded array; the weights' and biases' blocks are the whole arrays.
-/
import proofs.«145467_g2000303719555550_pallasbulk_618_22_alg».proof.Proof.Gen.ReferenceIdeal.Frame
import Idealize.ShloMosaic.Lib.ValueIdx
import Idealize.ShloMosaic.Lib.Pipeline.Value

set_option maxRecDepth 16384

noncomputable section

namespace Cert.ReferenceIdeal.RefHand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Row r of grid point t's block is padded sample 24 t + r. -/
def samp (t : Fin cfg0.N) (r : Fin 24) : Fin 264 := ⟨24 * t.val + r.val, by
  have h1 : t.val < 11 := Nat.lt_of_lt_of_eq t.isLt N_0
  have := r.isLt; omega⟩

/-- The printed index maps, decided over the grid: the activations' block index is the grid point on the sample axis
    and 0 on the other two; every other window's block index is 0 on both axes. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)

theorem iblk0_apply (c : Dev nD) (t : Fin cfg0.N) (r : Fin 24) (ch : Fin 1024) (h : Fin 49) :
    (iblk m c 0 t : S24x1024x49.Idx → Elt F .f32) (ix3 r ch h) = (V m c main_v1 : S264x1024x49.Idx → Elt F .f32) (ix3 (samp t r) ch h) := by
  obtain ⟨e0, e1, e2⟩ := index0 t
  show V m c main_v1 (((cfg0.win 0).blk t).view.emb (ix3 r ch h)) = V m c main_v1 (ix3 (samp t r) ch h)
  refine congrArg _ (funext fun a => Fin.ext ?_)
  match a with
  | ⟨0, _⟩ => show win0_0.index t (0 : Fin 3) * 24 + 1 * r.val = 24 * t.val + r.val; omega
  | ⟨1, _⟩ => show win0_0.index t (1 : Fin 3) * 1024 + 1 * ch.val = ch.val; omega
  | ⟨2, _⟩ => show win0_0.index t (2 : Fin 3) * 49 + 1 * h.val = h.val; omega
theorem iblk1_eq (c : Dev nD) (t : Fin cfg0.N) : (iblk m c 1 t : S1024x512.Idx → Elt F .f32) = (V m c main_v2 : S1024x512.Idx → Elt F .f32) := by
  obtain ⟨e0, e1⟩ := index1 t
  funext j
  show V m c main_v2 (((cfg0.win 1).blk t).view.emb j) = V m c main_v2 j
  refine congrArg _ (funext fun a => Fin.ext ?_)
  match a with
  | ⟨0, _⟩ => show win0_1.index t (0 : Fin 2) * 1024 + 1 * (j 0).val = (j 0).val; omega
  | ⟨1, _⟩ => show win0_1.index t (1 : Fin 2) * 512 + 1 * (j 1).val = (j 1).val; omega
theorem iblk2_eq (c : Dev nD) (t : Fin cfg0.N) : (iblk m c 2 t : S1x512.Idx → Elt F .f32) = (V m c main_v3 : S1x512.Idx → Elt F .f32) := by
  obtain ⟨e0, e1⟩ := index2 t
  funext j
  show V m c main_v3 (((cfg0.win 2).blk t).view.emb j) = V m c main_v3 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 512 + 1 * (j 1).val = (j 1).val; omega
theorem iblk3_eq (c : Dev nD) (t : Fin cfg0.N) : (iblk m c 3 t : S512x1024.Idx → Elt F .f32) = (V m c main_v4 : S512x1024.Idx → Elt F .f32) := by
  obtain ⟨e0, e1⟩ := index3 t
  funext j
  show V m c main_v4 (((cfg0.win 3).blk t).view.emb j) = V m c main_v4 j
  refine congrArg _ (funext fun a => Fin.ext ?_)
  match a with
  | ⟨0, _⟩ => show win0_3.index t (0 : Fin 2) * 512 + 1 * (j 0).val = (j 0).val; omega
  | ⟨1, _⟩ => show win0_3.index t (1 : Fin 2) * 1024 + 1 * (j 1).val = (j 1).val; omega
theorem iblk4_eq (c : Dev nD) (t : Fin cfg0.N) : (iblk m c 4 t : S1x1024.Idx → Elt F .f32) = (V m c main_v5 : S1x1024.Idx → Elt F .f32) := by
  obtain ⟨e0, e1⟩ := index4 t
  funext j
  show V m c main_v5 (((cfg0.win 4).blk t).view.emb j) = V m c main_v5 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 1024 + 1 * (j 1).val = (j 1).val; omega

end Cert.ReferenceIdeal.RefHand

end
-- ==== Proof.RHostVal.lean ====
/-
  The arrays the reference's host operations build before its call, read at an index: the activations with the
  7 x 7 map flattened (and eight zero samples appended, never read back), the first layer's weights and bias
  unchanged, the classifier's weights and bias with 24 zero columns appended.
-/
import proofs.«145467_g2000303719555550_pallasbulk_618_22_alg».proof.Proof.Gen.ReferenceIdeal.Frame
import proofs.«145467_g2000303719555550_pallasbulk_618_22_alg».proof.Proof.Spec
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

namespace Cert.ReferenceIdeal.RefHand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Sample n < 256 among the 264 padded rows; class k < 1000 among the 1024 padded columns. -/
def padN (n : Fin 256) : Fin 264 := ⟨n.val, by have := n.isLt; omega⟩
def padK (k : Fin 1000) : Fin 1024 := ⟨k.val, by have := k.isLt; omega⟩

/-- A pad that adds nothing in front of and nothing between the operand's entries, onto the operand's own shape, is the
    operand. -/
theorem pad_nothing {s : Shape} {α : Type} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x := by
  funext j
  exact pad_apply_of_inside lo hi interior x v h hu j j (fun a => by rw [hlo a, hint a]; simp)

/-- The padded activations: the reshape of the launched activations, padded with eight rows of some value. -/
theorem V_main_v1_term (c : Dev nD) : ∃ v : S_.Idx → Elt F .f32,
    (V m c main_v1 : S264x1024x49.Idx → Elt F .f32)
      = pad S264x1024x49 ![0, 0, 0] ![8, 0, 0] ![0, 0, 0]
          (shapeCast S256x1024x49 (m ((c : Thread nD τ).loc main_arg0) : S256x1024x7x7.Idx → Elt F .f32) shapeCasts_S256x1024x7x7_S256x1024x49) v
          pads_S256x1024x49_S264x1024x49_080_000_000 h_S_ :=
  ⟨_, by
    dsimp only [V, V0]
    simp only [hostOps0, hostOps0_1, hostOps0_2, hostOps0_3, hostOps0_4, hostOps0_5, hostOps0_6, hostOps0_7, hostOps0_8, hostOps0_9, List.flatten_cons, List.flatten_nil, List.append_nil, List.cons_append, List.nil_append]
    after_results; rfl⟩

theorem V_main_v1_apply (c : Dev nD) (n : Fin 256) (ch : Fin 1024) (h : Fin 49) :
    (V m c main_v1 : S264x1024x49.Idx → Elt F .f32) (ix3 (padN n) ch h)
      = (m ((c : Thread nD τ).loc main_arg0) : S256x1024x7x7.Idx → Elt F .f32) (ix4 n ch (Cert.Spec.hrow h) (Cert.Spec.hcol h)) := by
  obtain ⟨v, e⟩ := V_main_v1_term m c
  rw [e, pad_apply_of_inside _ _ _ _ v _ _ (ix3 (padN n) ch h) (ix3 n ch h) (fun a => by
    match a with
    | ⟨0, _⟩ => show n.val = 0 + n.val * (0 + 1); omega
    | ⟨1, _⟩ => show ch.val = 0 + ch.val * (0 + 1); omega
    | ⟨2, _⟩ => show h.val = 0 + h.val * (0 + 1); omega)]
  refine shapeCast_apply _ _ (ix3 n ch h) (ix4 n ch (Cert.Spec.hrow h) (Cert.Spec.hcol h)) ?_
  rw [Shape.rowMajor_val_four, Shape.rowMajor_val_three]
  show ((n.val * 1024 + ch.val) * 7 + h.val / 7) * 7 + h.val % 7 = (n.val * 1024 + ch.val) * 49 + h.val
  omega
theorem V_main_v2_eq (c : Dev nD) :
    (V m c main_v2 : S1024x512.Idx → Elt F .f32) = (m ((c : Thread nD τ).loc main_arg1) : S1024x512.Idx → Elt F .f32) := by
  obtain ⟨v, e⟩ : ∃ v : S_.Idx → Elt F .f32, (V m c main_v2 : S1024x512.Idx → Elt F .f32)
      = pad S1024x512 ![0, 0] ![0, 0] ![0, 0] (m ((c : Thread nD τ).loc main_arg1) : S1024x512.Idx → Elt F .f32) v
          pads_S1024x512_S1024x512_000_000 h_S_ :=
    ⟨_, by
      dsimp only [V, V0]
      simp only [hostOps0, hostOps0_1, hostOps0_2, hostOps0_3, hostOps0_4, hostOps0_5, hostOps0_6, hostOps0_7, hostOps0_8, hostOps0_9, List.flatten_cons, List.flatten_nil, List.append_nil, List.cons_append, List.nil_append]
      after_results; rfl⟩
  rw [e]
  exact pad_nothing _ _ _ _ v _ _ (show ∀ a : Fin 2, (![0, 0] : Fin 2 → Nat) a = 0 by decide) (show ∀ a : Fin 2, (![0, 0] : Fin 2 → Nat) a = 0 by decide)
theorem V_main_v3_eq (c : Dev nD) :
    (V m c main_v3 : S1x512.Idx → Elt F .f32) = (m ((c : Thread nD τ).loc main_arg2) : S1x512.Idx → Elt F .f32) := by
  obtain ⟨v, e⟩ : ∃ v : S_.Idx → Elt F .f32, (V m c main_v3 : S1x512.Idx → Elt F .f32)
      = pad S1x512 ![0, 0] ![0, 0] ![0, 0] (m ((c : Thread nD τ).loc main_arg2) : S1x512.Idx → Elt F .f32) v
          pads_S1x512_S1x512_000_000 h_S_ :=
    ⟨_, by
      dsimp only [V, V0]
      simp only [hostOps0, hostOps0_1, hostOps0_2, hostOps0_3, hostOps0_4, hostOps0_5, hostOps0_6, hostOps0_7, hostOps0_8, hostOps0_9, List.flatten_cons, List.flatten_nil, List.append_nil, List.cons_append, List.nil_append]
      after_results; rfl⟩
  rw [e]
  exact pad_nothing _ _ _ _ v _ _ (show ∀ a : Fin 2, (![0, 0] : Fin 2 → Nat) a = 0 by decide) (show ∀ a : Fin 2, (![0, 0] : Fin 2 → Nat) a = 0 by decide)
theorem V_main_v4_apply (c : Dev nD) (f : Fin 512) (k : Fin 1000) :
    (V m c main_v4 : S512x1024.Idx → Elt F .f32) (ix2 f (padK k))
      = (m ((c : Thread nD τ).loc main_arg3) : S512x1000.Idx → Elt F .f32) (ix2 f k) := by
  obtain ⟨v, e⟩ : ∃ v : S_.Idx → Elt F .f32, (V m c main_v4 : S512x1024.Idx → Elt F .f32)
      = pad S512x1024 ![0, 0] ![0, 24] ![0, 0] (m ((c : Thread nD τ).loc main_arg3) : S512x1000.Idx → Elt F .f32) v
          pads_S512x1000_S512x1024_000_0240 h_S_ :=
    ⟨_, by
      dsimp only [V, V0]
      simp only [hostOps0, hostOps0_1, hostOps0_2, hostOps0_3, hostOps0_4, hostOps0_5, hostOps0_6, hostOps0_7, hostOps0_8, hostOps0_9, List.flatten_cons, List.flatten_nil, List.append_nil, List.cons_append, List.nil_append]
      after_results; rfl⟩
  rw [e]
  exact pad_apply_of_inside _ _ _ _ v _ _ (ix2 f (padK k)) (ix2 f k) (fun a => by
    match a with
    | ⟨0, _⟩ => show f.val = 0 + f.val * (0 + 1); omega
    | ⟨1, _⟩ => show k.val = 0 + k.val * (0 + 1); omega)
theorem V_main_v5_apply (c : Dev nD) (k : Fin 1000) :
    (V m c main_v5 : S1x1024.Idx → Elt F .f32) (ix2 0 (padK k))
      = (m ((c : Thread nD τ).loc main_arg4) : S1x1000.Idx → Elt F .f32) (ix2 0 k) := by
  obtain ⟨v, e⟩ : ∃ v : S_.Idx → Elt F .f32, (V m c main_v5 : S1x1024.Idx → Elt F .f32)
      = pad S1x1024 ![0, 0] ![0, 24] ![0, 0] (m ((c : Thread nD τ).loc main_arg4) : S1x1000.Idx → Elt F .f32) v
          pads_S1x1000_S1x1024_000_0240 h_S_ :=
    ⟨_, by
      dsimp only [V, V0]
      simp only [hostOps0, hostOps0_1, hostOps0_2, hostOps0_3, hostOps0_4, hostOps0_5, hostOps0_6, hostOps0_7, hostOps0_8, hostOps0_9, List.flatten_cons, List.flatten_nil, List.append_nil, List.cons_append, List.nil_append]
      after_results; rfl⟩
  rw [e]
  exact pad_apply_of_inside _ _ _ _ v _ _ (ix2 0 (padK k)) (ix2 0 k) (fun a => by
    match a with
    | ⟨0, _⟩ => show (0 : Fin 1).val = 0 + (0 : Fin 1).val * (0 + 1); rfl
    | ⟨1, _⟩ => show k.val = 0 + k.val * (0 + 1); omega)

end Cert.ReferenceIdeal.RefHand

end
-- ==== Proof.RPayload.lean ====
/-
  The reference body's arithmetic at an entry, over the extended reals: entry (r, k) of the stored block is
  sum over f of max (sum over c of ((spatial sum) * s) * wf(c, f) + bf(f), 0) * wc(f, k) + bc(k).
-/
import proofs.«145467_g2000303719555550_pallasbulk_618_22_alg».proof.Proof.Gen.ReferenceIdeal.Skeleton
import proofs.«145467_g2000303719555550_pallasbulk_618_22_alg».proof.Proof.Spec
import proofs.«145467_g2000303719555550_pallasbulk_618_22_alg».proof.Proof.LibDot
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.ReferenceIdeal.RefHand

open Cert.ReferenceIdeal Cert.ReferenceIdeal.Gen
open Idealize.ShloMosaic Idealize.ShloMosaic.ValueIdx

/-- A sum over the trailing axis of a three-axis block, read at (r, c): the sum over that axis's coordinate. -/
theorem sum_trail_apply {R C n : Nat} (x : FVec Ideal ⟨3, ![R, C, n]⟩ .f32)
    (h : (⟨3, ![R, C, n]⟩ : Shape).Reduces [2] ⟨2, ![R, C]⟩) (hφ : FKind.Formats .f32)
    (hacc : (0x00000000#32 : BitVec 32) = FKind.add.neutral .f32 hφ) (r : Fin R) (c : Fin C) :
    multiReduction (F := Ideal) .add [2] ⟨2, ![R, C]⟩ x 0x00000000#32 h hφ hacc (ix2 r c) = ∑ a : Fin n, x (ix3 r c a) := by
  refine (Ideal.multiReduction_add_single x _ h hφ hacc (ix2 r c)).trans ?_
  show (∑ a : Fin n, x (h.lift (ix2 r c) a)) = _
  refine Finset.sum_congr rfl fun a _ => congrArg x ?_
  funext b; apply Fin.ext
  fin_cases b <;> rfl

/-- The single-precision zero word is the extended real zero. -/
theorem zero_word : FloatOps.ofBits (F := Ideal) .f32 0x00000000#32 = (0 : Ideal .f32) := Ideal.ofBits_zero_f32

/-- The scale word is the specification's scale. -/
theorem scale_word : FloatOps.ofBits (F := Ideal) .f32 0x3CA72F05#32 = (Cert.Spec.scale : Ideal .f32) := rfl

theorem pay_apply (x : Vec Ideal S24x1024x49 .f32) (wf : Vec Ideal S1024x512 .f32) (bf : Vec Ideal S1x512 .f32)
    (wc : Vec Ideal S512x1024 .f32) (bc : Vec Ideal S1x1024 .f32) (r : Fin 24) (k : Fin 1024) :
    (k0_pay1 x wf bf wc bc : S24x1024.Idx → EReal) (ix2 r k)
      = (∑ f : Fin 512, max ((∑ c : Fin 1024,
            ((∑ h : Fin 49, (x : S24x1024x49.Idx → EReal) (ix3 r c h)) * Cert.Spec.scale) * (wf : S1024x512.Idx → EReal) (ix2 c f))
            + (bf : S1x512.Idx → EReal) (ix2 0 f)) 0 * (wc : S512x1024.Idx → EReal) (ix2 f k))
        + (bc : S1x1024.Idx → EReal) (ix2 0 k) := by
  unfold k0_pay1
  rw [addf_apply, broadcastTo_1b_ab_apply, shapeCast_self bc]
  simp only [matmul]
  rw [Cert.LibDot.matmul_zero_at dot_S24x512_S512x1024_S24x1024_1_0_0_1_n_n rfl rfl rfl rfl rfl rfl]
  refine congrArg₂ (· + ·) (Finset.sum_congr rfl fun f _ => ?_) rfl
  rw [shapeCast_self wc, maximumf_apply, broadcast_apply, zero_word, addf_apply,
    broadcastTo_1b_ab_apply, shapeCast_self bf,
    Cert.LibDot.matmul_zero_at dot_S24x1024_S1024x512_S24x512_1_0_0_1_n_n rfl rfl rfl rfl rfl rfl]
  refine congrArg₂ (· * ·) (congrArg₂ max (congrArg₂ (· + ·) (Finset.sum_congr rfl fun c _ => ?_) rfl) rfl) rfl
  rw [shapeCast_self wf, mulf_apply, broadcast_apply, scale_word, shapeCast_self x]
  exact congrArg₂ (· * ·) (congrArg₂ (· * ·) (sum_trail_apply x _ _ _ r c) rfl) rfl

end Cert.ReferenceIdeal.RefHand

end
-- ==== Proof.RValue.lean ====
/-
  The reference's result is the specification's function of the arguments: block t of the padded logits array is what
  point t stored, the eleven blocks of 24 rows cover the 264 rows, entry (r, k) of point t's store is logit k of sample
  24 t + r whenever that sample and class are real ones, and the closing slice keeps exactly those.
-/
import proofs.«145467_g2000303719555550_pallasbulk_618_22_alg».proof.Proof.RBlocks
import proofs.«145467_g2000303719555550_pallasbulk_618_22_alg».proof.Proof.RHostVal
import proofs.«145467_g2000303719555550_pallasbulk_618_22_alg».proof.Proof.RPayload
import proofs.«145467_g2000303719555550_pallasbulk_618_22_alg».proof.Proof.Spec
import Idealize.ShloMosaic.Lib.Pipeline.Value
import Idealize.ShloMosaic.Lib.StableHlo.Run

set_option maxRecDepth 16384

noncomputable section

open scoped BigOperators

namespace Cert.ReferenceIdeal.RefHand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

namespace Padded

/-- Zero offsets, spelt as a constant function. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- Logit k of padded sample n, from the padded arrays. -/
def padLogit (x : Vec Ideal S264x1024x49 .f32) (wf : Vec Ideal S1024x512 .f32) (bf : Vec Ideal S1x512 .f32)
    (wc : Vec Ideal S512x1024 .f32) (bc : Vec Ideal S1x1024 .f32) (n : Fin 264) (k : Fin 1024) : EReal :=
  (∑ f : Fin 512, max ((∑ c : Fin 1024,
        ((∑ h : Fin 49, (x : S264x1024x49.Idx → EReal) (ix3 n c h)) * Cert.Spec.scale) * (wf : S1024x512.Idx → EReal) (ix2 c f))
        + (bf : S1x512.Idx → EReal) (ix2 0 f)) 0 * (wc : S512x1024.Idx → EReal) (ix2 f k))
    + (bc : S1x1024.Idx → EReal) (ix2 0 k)

/-- The stored block's entry (r, k) is the padded logit of the sample its row r holds. -/
theorem pay_pad (x0 : Vec Ideal S24x1024x49 .f32) (X : Vec Ideal S264x1024x49 .f32) (wf : Vec Ideal S1024x512 .f32)
    (bf : Vec Ideal S1x512 .f32) (wc : Vec Ideal S512x1024 .f32) (bc : Vec Ideal S1x1024 .f32) (n : Fin 264) (r : Fin 24) (k : Fin 1024)
    (hx : ∀ (ch : Fin 1024) (h : Fin 49), (x0 : S24x1024x49.Idx → EReal) (ix3 r ch h) = (X : S264x1024x49.Idx → EReal) (ix3 n ch h)) :
    (k0_pay1 x0 wf bf wc bc : S24x1024.Idx → EReal) (ix2 r k) = padLogit X wf bf wc bc n k := by
  rw [pay_apply]
  unfold padLogit
  simp only [hx]

/-- The whole padded logits array. -/
def padLogits (m : (ℓ : Loc nD τ sig) → Buf (Elt Ideal) ℓ) (c : Dev nD) : S264x1024.Idx → EReal := fun i =>
  padLogit (V m c main_v1) (V m c main_v2) (V m c main_v3) (V m c main_v4) (V m c main_v5) (i 0) (i 1)

/-- The output window's block index at point t is (t, 0). -/
theorem idx5 : ∀ t : Fin cfg0.N, win0_5.index t (0 : Fin 2) = t.val ∧ win0_5.index t (1 : Fin 2) = 0 :=
  (by decide +kernel : ∀ t : Fin grid0.N, _)

/-- What point t writes back is block t of the padded logits array. -/
theorem flushed_eq (m : (ℓ : Loc nD τ sig) → Buf (Elt Ideal) ℓ) (c : Dev nD) (t : Fin cfg0.N) :
    (dats (F := Ideal) m 0 c).flushed 5 t = ((cfg0.win 5).blk t).view.read (Elt Ideal) (padLogits m c) := by
  show (cfg0.win 5).cut (grid0.coords t) ((dats m 0 c).after 5 t) = _
  rw [after0_5]
  unfold out0_5
  rw [View.canon_unit_zero zeros2]
  simp only [View.ld_unit_zero (S := S24x1024x49) zeros3, View.ld_unit_zero (S := S1024x512) zeros2, View.ld_unit_zero (S := S1x512) zeros2, View.ld_unit_zero (S := S512x1024) zeros2, View.ld_unit_zero (S := S1x1024) zeros2]
  rw [iblk1_eq m c t, iblk2_eq m c t, iblk3_eq m c t, iblk4_eq m c t]
  funext y
  obtain ⟨r, k, rfl⟩ : ∃ (r : Fin 24) (k : Fin 1024), y = ix2 r k := ⟨y 0, y 1, eq_ix2 y⟩
  show (k0_pay1 (iblk m c 0 t) (V m c main_v2) (V m c main_v3) (V m c main_v4) (V m c main_v5) : S24x1024.Idx → EReal) (ix2 r k)
    = padLogits m c (((cfg0.win 5).blk t).view.emb (ix2 r k))
  refine (pay_pad (iblk m c 0 t) (V m c main_v1) (V m c main_v2) (V m c main_v3) (V m c main_v4) (V m c main_v5) (samp t r) r k
    (fun ch h => iblk0_apply m c t r ch h)).trans ?_
  unfold padLogits
  obtain ⟨e0, e1⟩ := idx5 t
  congr 1 <;> apply Fin.ext
  · show 24 * t.val + r.val = win0_5.index t (0 : Fin 2) * 24 + 1 * r.val; omega
  · show k.val = win0_5.index t (1 : Fin 2) * 1024 + 1 * k.val; omega

/-- An index of the padded logits array is in point t's block iff each coordinate is in the block's range. -/
theorem mem_blk (t : Fin cfg0.N) (i : S264x1024.Idx) :
    i ∈ ((cfg0.win 5).blk t).view.set ↔ ∀ a : Fin 2, win0_5.index t a * S24x1024.size a ≤ (i a).val ∧ (i a).val < win0_5.index t a * S24x1024.size a + S24x1024.size a := by
  show i ∈ ((View.whole main_v6).slice (win0_5.rect t)).set ↔ _
  rw [View.set_slice_whole, Rect.mem_set_unit]
  exact Iff.rfl

/-- Row n' of the padded logits array is in the block of point n' / 24. -/
theorem cover (i : S264x1024.Idx) : ∃ t : Fin cfg0.N, (cfg0.win 5).flush t = true ∧ i ∈ ((cfg0.win 5).blk t).view.set := by
  have hi0 : (i 0).val < 264 := (i 0).isLt
  have hi1 : (i 1).val < 1024 := (i 1).isLt
  have hN : grid0.N = 11 := N_0
  let t : Fin cfg0.N := ⟨(i 0).val / 24, by show (i 0).val / 24 < grid0.N; omega⟩
  refine ⟨t, flush0_5 t, ?_⟩
  rw [mem_blk]
  obtain ⟨e0, e1⟩ := idx5 t
  have ht : t.val = (i 0).val / 24 := rfl
  intro a
  match a with
  | ⟨0, _⟩ => show win0_5.index t (0 : Fin 2) * 24 ≤ (i 0).val ∧ (i 0).val < win0_5.index t (0 : Fin 2) * 24 + 24; omega
  | ⟨1, _⟩ => show win0_5.index t (1 : Fin 2) * 1024 ≤ (i 1).val ∧ (i 1).val < win0_5.index t (1 : Fin 2) * 1024 + 1024; omega

/-- After the call the padded logits array holds the padded logits. -/
theorem final (m : (ℓ : Loc nD τ sig) → Buf (Elt Ideal) ℓ) (c : Dev nD) : (dats (F := Ideal) m 0 c).arrAt 5 cfg0.N = padLogits m c :=
  (dats m 0 c).arrAt_eq_of_cover 5 (padLogits m c) (fun t _ => flushed_eq m c t) cover

end Padded

open Padded

theorem ref_final (m : (ℓ : Loc nD τ sig) → Buf (Elt Ideal) ℓ) (c : Dev nD) :
    (Pipeline.afterTail₀ cfgs (dats (F := Ideal) m) 0 (V0 m) [hostOps1] c main_v7 : S256x1000.Idx → EReal)
      = Cert.Spec.logits (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v7) = _
  after_results
  have hW : (Pipeline.withArrays (cfgs 0).spec c (V0 m c) (fun w => (dats m 0 c).arrAt w (cfgs 0).N) (Proc.devRef .tc main_v6) : S264x1024.Idx → EReal)
      = padLogits m c :=
    (Pipeline.withArrays_arr spec0 launch0.win.arr_inj c _ _ 5).trans (final m c)
  rw [hW]
  funext i
  obtain ⟨n, k, rfl⟩ : ∃ (n : Fin 256) (k : Fin 1000), i = ix2 n k := ⟨i 0, i 1, eq_ix2 i⟩
  rw [Cert.Spec.logits_ix2]
  refine (extractStridedSlice_apply _ _ _ (ix2 n k) (ix2 (padN n) (padK k)) fun a => ?_).trans ?_
  · match a with
    | ⟨0, _⟩ => show n.val = 0 + n.val; omega
    | ⟨1, _⟩ => show k.val = 0 + k.val; omega
  · show padLogit (V m c main_v1) (V m c main_v2) (V m c main_v3) (V m c main_v4) (V m c main_v5) (padN n) (padK k) = _
    unfold padLogit Cert.Spec.logit Cert.Spec.feature Cert.Spec.pooled
    rw [V_main_v2_eq m c, V_main_v3_eq m c, V_main_v5_apply m c k]
    simp only [V_main_v1_apply m c, V_main_v4_apply m c]

end Cert.ReferenceIdeal.RefHand

end
-- ==== Proof.lean ====
/-
  The certificate: an optimized classification head (spatial average, linear layer, rectifier, linear layer) against
  the pipeline's own pipelined implementation of the same head.

  Both programs compute, for sample n and class k,
      logit(n, k) = sum over f of max (sum over c of (S(n, c) * s) * wf(c, f) + bf(f), 0) * wc(f, k) + bc(k),
  where S(n, c) is the sum of the 49 spatial positions of x(n, c, ., .) and s the single-precision number both spell
  for 1/49 (the same word on both sides). The kernel reads the activations spatial-major, 32 samples a grid point,
  and adds up the positions in three groups (21 + 21 + 7); the reference reads them sample-major, 24 samples a grid
  point of a batch padded to 264, pads the classifier to 1024 columns and slices the padding away. Over the extended
  reals the three partial sums add up to the whole sum (addition is associative and commutative there, so no
  finiteness is needed), the roundings to the half-width format before the kernel's matrix products are the identity,
  and a product against the transposed classifier matrix is the product against the matrix. The word-level kernel and
  its idealization are the same text (the ideal pass rewrote nothing), so the preservation claim is trivial.

  The frames of the two kernel programs are proved by hand: three of the call's windows read ONE array, so the
  launch deals that array's full share among them (a half and two quarters).
-/
import proofs.«145467_g2000303719555550_pallasbulk_618_22_alg».proof.Defs
import proofs.«145467_g2000303719555550_pallasbulk_618_22_alg».proof.Proof.Gen.Kernel
import proofs.«145467_g2000303719555550_pallasbulk_618_22_alg».proof.Proof.Gen.KernelIdeal
import proofs.«145467_g2000303719555550_pallasbulk_618_22_alg».proof.Proof.Gen.ReferenceIdeal
import proofs.«145467_g2000303719555550_pallasbulk_618_22_alg».proof.Proof.Gen.ReferenceIdeal.Frame
import proofs.«145467_g2000303719555550_pallasbulk_618_22_alg».proof.Proof.Gen.Pre_finite_inputs
import proofs.«145467_g2000303719555550_pallasbulk_618_22_alg».proof.Proof.BRun
import proofs.«145467_g2000303719555550_pallasbulk_618_22_alg».proof.Proof.IRun
import proofs.«145467_g2000303719555550_pallasbulk_618_22_alg».proof.Proof.IValue
import proofs.«145467_g2000303719555550_pallasbulk_618_22_alg».proof.Proof.RValue
import Idealize.ShloMosaic.Adequacy
import Idealize.ShloMosaic.Init

noncomputable section

namespace Cert.Proof

open Idealize.ShloMosaic Idealize.ShloMosaic.TcCoe Idealize.SL.Sem

/-- The reference's run, read at its result and its arguments: the result is what the closing slice leaves. -/
theorem ref_run_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v7)
          = Pipeline.afterTail₀ Cert.ReferenceIdeal.cfgs (Cert.ReferenceIdeal.Gen.dats (F := Ideal) m) 0 (Cert.ReferenceIdeal.Gen.V0 m)
              [Cert.ReferenceIdeal.Gen.hostOps1] c Cert.ReferenceIdeal.main_v7
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c =>
    ⟨(h c).2 Cert.ReferenceIdeal.main_v7 (Pipeline.mem_restRefs_of Cert.ReferenceIdeal.main_v7 (by decide) (by decide)),
      (((h c).2 Cert.ReferenceIdeal.main_arg0 (Pipeline.mem_restRefs_of Cert.ReferenceIdeal.main_arg0 (by decide) (by decide))).trans (Cert.ReferenceIdeal.Gen.W_main_arg0 m (Cert.ReferenceIdeal.Gen.dats m) c)),
      (((h c).2 Cert.ReferenceIdeal.main_arg1 (Pipeline.mem_restRefs_of Cert.ReferenceIdeal.main_arg1 (by decide) (by decide))).trans (Cert.ReferenceIdeal.Gen.W_main_arg1 m (Cert.ReferenceIdeal.Gen.dats m) c)),
      (((h c).2 Cert.ReferenceIdeal.main_arg2 (Pipeline.mem_restRefs_of Cert.ReferenceIdeal.main_arg2 (by decide) (by decide))).trans (Cert.ReferenceIdeal.Gen.W_main_arg2 m (Cert.ReferenceIdeal.Gen.dats m) c)),
      (((h c).2 Cert.ReferenceIdeal.main_arg3 (Pipeline.mem_restRefs_of Cert.ReferenceIdeal.main_arg3 (by decide) (by decide))).trans (Cert.ReferenceIdeal.Gen.W_main_arg3 m (Cert.ReferenceIdeal.Gen.dats m) c)),
      (((h c).2 Cert.ReferenceIdeal.main_arg4 (Pipeline.mem_restRefs_of Cert.ReferenceIdeal.main_arg4 (by decide) (by decide))).trans (Cert.ReferenceIdeal.Gen.W_main_arg4 m (Cert.ReferenceIdeal.Gen.dats m) c))⟩)
    (Cert.ReferenceIdeal.Gen.run_main (F := Ideal) m ρ)

/-- Both idealized programs end with the logits array at the specification's function of the arguments. -/
theorem algebraic : Cert.algebraic_KernelIdeal_ReferenceIdeal := by
  intro m ρ m' ρ' _ hagree
  refine ⟨fun c => Cert.Spec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.final7 m c), (h c).2⟩)
      (Cert.KernelIdeal.Hand.run_value (F := Ideal) m ρ)
  · refine (θ_run Cert.ReferenceIdeal.defs _ _).mono (fun _ h c => ⟨(h c).1.trans ?_, (h c).2⟩) (ref_run_value m' ρ')
    rw [Cert.ReferenceIdeal.RefHand.ref_final m' c, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Gen.frame m ρ,
  trivial,
  algebraic⟩

end Cert.Proof

end
